-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x600000 : Shape := ⟨2, ![2, 600000]⟩
abbrev S1x128 : Shape := ⟨2, ![1, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x1 .f32) (main_arg1 : IVec S2x600000 32) (main_arg2 : IVec S2x600000 32) (main_arg3 : FVec F S1x128 .f32) (main_arg4 : FVec F S128 .f32) (main_arg5 : FVec F S128x64 .f32) (main_arg6 : FVec F S64 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x1 : Shape := ⟨2, ![100000, 1]⟩
abbrev S2x600000 : Shape := ⟨2, ![2, 600000]⟩
abbrev S1x128 : Shape := ⟨2, ![1, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S2000x1 : Shape := ⟨2, ![2000, 1]⟩
abbrev S2000x128 : Shape := ⟨2, ![2000, 128]⟩
abbrev S700000x128 : Shape := ⟨2, ![700000, 128]⟩
abbrev S4000x128 : Shape := ⟨2, ![4000, 128]⟩
abbrev S4000x1 : Shape := ⟨2, ![4000, 1]⟩
abbrev S100000x64 : Shape := ⟨2, ![100000, 64]⟩
abbrev S2000x64 : Shape := ⟨2, ![2000, 64]⟩
abbrev S700000x64 : Shape := ⟨2, ![700000, 64]⟩
abbrev S4000x64 : Shape := ⟨2, ![4000, 64]⟩
abbrev S1x64 : Shape := ⟨2, ![1, 64]⟩
abbrev S2x1200000 : Shape := ⟨2, ![2, 1200000]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩
abbrev S4000 : Shape := ⟨1, ![4000]⟩

abbrev nBuf : Space → Nat
  | .hbm => 100
  | .vmem => 38
  | .smem => 0
  | _ => 0

abbrev bufTy : (tb : Table) → Fin (tcTables nBuf tb) → BufTy
  | .hbm, ⟨0, _⟩ => ⟨S100000x1, .f32⟩
  | .hbm, ⟨1, _⟩ => ⟨S2x600000, .i32⟩
  | .hbm, ⟨2, _⟩ => ⟨S2x600000, .i32⟩
  | .hbm, ⟨3, _⟩ => ⟨S1x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S100000, .i32⟩
  | .hbm, ⟨12, _⟩ => ⟨S700000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S700000, .i32⟩
  | .hbm, ⟨23, _⟩ => ⟨S700000, .i1⟩
  | .hbm, ⟨24, _⟩ => ⟨S_, .i32⟩
  | .hbm, ⟨25, _⟩ => ⟨S700000, .i32⟩
  | .hbm, ⟨26, _⟩ => ⟨S700000, .i32⟩
  | .hbm, ⟨27, _⟩ => ⟨S700000, .i32⟩
  | .hbm, ⟨28, _⟩ => ⟨S700000x1, .i32⟩
  | .hbm, ⟨29, _⟩ => ⟨S700000, .f32⟩
  | .hbm, ⟨30, _⟩ => ⟨S_, .i32⟩
  | .hbm, ⟨31, _⟩ => ⟨S700000, .i32⟩
  | .hbm, ⟨32, _⟩ => ⟨S700000, .i1⟩
  | .hbm, ⟨33, _⟩ => ⟨S_, .i32⟩
  | .hbm, ⟨34, _⟩ => ⟨S700000, .i32⟩
  | .hbm, ⟨35, _⟩ => ⟨S700000, .i32⟩
  | .hbm, ⟨36, _⟩ => ⟨S700000, .i32⟩
  | .hbm, ⟨37, _⟩ => ⟨S700000x1, .i32⟩
  | .hbm, ⟨38, _⟩ => ⟨S700000, .f32⟩
  | .hbm, ⟨39, _⟩ => ⟨S700000, .f32⟩
  | .hbm, ⟨40, _⟩ => ⟨S700000x1, .f32⟩
  | .hbm, ⟨41, _⟩ => ⟨S100000x128, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000x128, .f32⟩
  | .hbm, ⟨51, _⟩ => ⟨S700000x128, .f32⟩
  | .hbm, ⟨52, _⟩ => ⟨S_, .f32⟩
  | .hbm, ⟨53, _⟩ => ⟨S100000x128, .f32⟩
  | .hbm, ⟨54, _⟩ => ⟨S700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S700000, .i32⟩
  | .hbm, ⟨61, _⟩ => ⟨S700000, .i1⟩
  | .hbm, ⟨62, _⟩ => ⟨S_, .i32⟩
  | .hbm, ⟨63, _⟩ => ⟨S700000, .i32⟩
  | .hbm, ⟨64, _⟩ => ⟨S700000, .i32⟩
  | .hbm, ⟨65, _⟩ => ⟨S700000, .i32⟩
  | .hbm, ⟨66, _⟩ => ⟨S700000x1, .i32⟩
  | .hbm, ⟨67, _⟩ => ⟨S700000x64, .f32⟩
  | .hbm, ⟨68, _⟩ => ⟨S700000x64, .f32⟩
  | .hbm, ⟨69, _⟩ => ⟨S_, .f32⟩
  | .hbm, ⟨70, _⟩ => ⟨S100000x64, .f32⟩
  | .hbm, ⟨71, _⟩ => ⟨S700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S2x1200000, .i32⟩
  | .hbm, ⟨76, _⟩ => ⟨S1x1200000, .i32⟩
  | .hbm, ⟨77, _⟩ => ⟨S1200000, .i32⟩
  | .hbm, ⟨78, _⟩ => ⟨S_, .i32⟩
  | .hbm, ⟨79, _⟩ => ⟨S1200000, .i32⟩
  | .hbm, ⟨80, _⟩ => ⟨S1200000, .i1⟩
  | .hbm, ⟨81, _⟩ => ⟨S_, .i32⟩
  | .hbm, ⟨82, _⟩ => ⟨S1200000, .i32⟩
  | .hbm, ⟨83, _⟩ => ⟨S1200000, .i32⟩
  | .hbm, ⟨84, _⟩ => ⟨S1200000, .i32⟩
  | .hbm, ⟨85, _⟩ => ⟨S1200000x1, .i32⟩
  | .hbm, ⟨86, _⟩ => ⟨S1200000x64, .f32⟩
  | .hbm, ⟨87, _⟩ => ⟨S1x1200000, .i32⟩
  | .hbm, ⟨88, _⟩ => ⟨S1200000, .i32⟩
  | .hbm, ⟨89, _⟩ => ⟨S_, .i32⟩
  | .hbm, ⟨90, _⟩ => ⟨S1200000, .i32⟩
  | .hbm, ⟨91, _⟩ => ⟨S1200000, .i1⟩
  | .hbm, ⟨92, _⟩ => ⟨S_, .i32⟩
  | .hbm, ⟨93, _⟩ => ⟨S1200000, .i32⟩
  | .hbm, ⟨94, _⟩ => ⟨S1200000, .i32⟩
  | .hbm, ⟨95, _⟩ => ⟨S1200000, .i32⟩
  | .hbm, ⟨96, _⟩ => ⟨S1200000x1, .i32⟩
  | .hbm, ⟨97, _⟩ => ⟨S1200000x64, .f32⟩
  | .hbm, ⟨98, _⟩ => ⟨S1200000x1, .f32⟩
  | .hbm, ⟨99, _⟩ => ⟨S1200000, .f32⟩
  | .local _ .vmem, ⟨0, _⟩ => ⟨S2000x1, .f32⟩
  | .local _ .vmem, ⟨1, _⟩ => ⟨S2000x1, .f32⟩
  | .local _ .vmem, ⟨2, _⟩ => ⟨S1x128, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S4000x1, .f32⟩
  | .local _ .vmem, ⟨8, _⟩ => ⟨S4000x1, .f32⟩
  | .local _ .vmem, ⟨9, _⟩ => ⟨S4000x128, .f32⟩
  | .local _ .vmem, ⟨10, _⟩ => ⟨S4000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S2000x64, .f32⟩
  | .local _ .vmem, ⟨20, _⟩ => ⟨S2000x64, .f32⟩
  | .local _ .vmem, ⟨21, _⟩ => ⟨S4000x64, .f32⟩
  | .local _ .vmem, ⟨22, _⟩ => ⟨S4000x64, .f32⟩
  | .local _ .vmem, ⟨23, _⟩ => ⟨S4000x1, .f32⟩
  | .local _ .vmem, ⟨24, _⟩ => ⟨S4000x1, .f32⟩
  | .local _ .vmem, ⟨25, _⟩ => ⟨S4000x64, .f32⟩
  | .local _ .vmem, ⟨26, _⟩ => ⟨S4000x64, .f32⟩
  | .local _ .vmem, ⟨27, _⟩ => ⟨S2000x64, .f32⟩
  | .local _ .vmem, ⟨28, _⟩ => ⟨S2000x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x1, .f32⟩
  | .local _ .vmem, ⟨37, _⟩ => ⟨S4000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![175], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![175], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![300], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S700000_S700000x1 : S700000.ShapeCasts S700000x1
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2x600000_S2x600000_S2x1200000_d1 : Shape.Concatenates [S2x600000, S2x600000] S2x1200000 1
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S2x1200000_S1x1200000_1_0 : S2x1200000.Slices ![1, 0] S1x1200000
  reduces_S4000x64_S4000 : S4000x64.Reduces [1] S4000
  shapeCasts_S4000_S4000x1 : S4000.ShapeCasts S4000x1
  shapeCasts_S1200000x1_S1200000 : S1200000x1.ShapeCasts S1200000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S2000x1_S1x128_S2000x128_1_0_0_1_n_n_wf : DotDims.WF S2000x1 S1x128 S2000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S2000x128_S128x64_S2000x64_1_0_0_1_n_n_wf : DotDims.WF S2000x128 S128x64 S2000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  gather_S100000x64_S1200000x1_S1200000x64_1_0_n_n_0_1_164_wf : GatherDims.WF S100000x64 S1200000x1 S1200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S700000x128.size a
  hwx1_0 : ∀ i : grid1.Coords, EltTy.bits .f32 = 32 ∨ (Rect.block (s := S700000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S700000x1.size a
  hwx1_1 : ∀ i : grid1.Coords, EltTy.bits .f32 = 32 ∨ (Rect.block (s := S700000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S700000x128.size a
  hwx1_2 : ∀ i : grid1.Coords, EltTy.bits .f32 = 32 ∨ (Rect.block (s := S700000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S700000x64.size a
  hwx4_0 : ∀ i : grid4.Coords, EltTy.bits .f32 = 32 ∨ (Rect.block (s := S700000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S700000x1.size a
  hwx4_1 : ∀ i : grid4.Coords, EltTy.bits .f32 = 32 ∨ (Rect.block (s := S700000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S700000x64.size a
  hwx4_2 : ∀ i : grid4.Coords, EltTy.bits .f32 = 32 ∨ (Rect.block (s := S700000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S1200000x64.size a
  hwx6_0 : ∀ i : grid6.Coords, EltTy.bits .f32 = 32 ∨ (Rect.block (s := S1200000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S1200000x64.size a
  hwx6_1 : ∀ i : grid6.Coords, EltTy.bits .f32 = 32 ∨ (Rect.block (s := S1200000x64) S4000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S1200000x1.size a
  hwx6_2 : ∀ i : grid6.Coords, EltTy.bits .f32 = 32 ∨ (Rect.block (s := S1200000x1) S4000x1.size (cc6_transform_2 i) (hinb6_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S2000x1_S1x128_S2000x128_1_0_0_1_n_n : DotDims S2000x1 S1x128 S2000x128 where
  lhsContracting := [1]
  rhsContracting := [0]
  lhsNonContracting := [0]
  rhsNonContracting := [1]
  lhsBatch := []
  rhsBatch := []
  wf := dot_S2000x1_S1x128_S2000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v53) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v65) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S4000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x600000 : Shape := ⟨2, ![2, 600000]⟩
abbrev S1x128 : Shape := ⟨2, ![1, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S100000x128 : Shape := ⟨2, ![100000, 128]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S100000x64 : Shape := ⟨2, ![100000, 64]⟩
abbrev S700000x64 : Shape := ⟨2, ![700000, 64]⟩
abbrev S1x64 : Shape := ⟨2, ![1, 64]⟩
abbrev S2x1200000 : Shape := ⟨2, ![2, 1200000]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩

abbrev nBuf : Space → Nat
  | .hbm => 138
  | .vmem => 0
  | .smem => 0
  | _ => 0

abbrev hbmTy0_0 (i : Nat) : BufTy := match i % 128 with
  | 0 => ⟨S100000x1, .f32⟩
  | 1 => ⟨S2x600000, .i32⟩
  | 2 => ⟨S2x600000, .i32⟩
  | 3 => ⟨S1x128, .f32⟩
  | 4 => ⟨S128, .f32⟩
  | 5 => ⟨S128x64, .f32⟩
  | 6 => ⟨S64, .f32⟩
  | 7 => ⟨S1x600000, .i32⟩
  | 8 => ⟨S600000, .i32⟩
  | 9 => ⟨S1x600000, .i32⟩
  | 10 => ⟨S600000, .i32⟩
  | 11 => ⟨S100000x128, .f32⟩
  | 12 => ⟨S100000, .i32⟩
  | 13 => ⟨S700000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S100000, .f32⟩
  | 22 => ⟨S_, .i32⟩
  | 23 => ⟨S700000, .i32⟩
  | 24 => ⟨S700000, .i1⟩
  | 25 => ⟨S_, .i32⟩
  | 26 => ⟨S700000, .i32⟩
  | 27 => ⟨S700000, .i32⟩
  | 28 => ⟨S700000, .i32⟩
  | 29 => ⟨S700000x1, .i32⟩
  | 30 => ⟨S700000, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000, .f32⟩
  | 40 => ⟨S700000, .f32⟩
  | 41 => ⟨S700000x1, .f32⟩
  | 42 => ⟨S_, .i32⟩
  | 43 => ⟨S700000, .i32⟩
  | 44 => ⟨S700000, .i1⟩
  | 45 => ⟨S_, .i32⟩
  | 46 => ⟨S700000, .i32⟩
  | 47 => ⟨S700000, .i32⟩
  | 48 => ⟨S700000, .i32⟩
  | 49 => ⟨S700000x1, .i32⟩
  | 50 => ⟨S700000x128, .f32⟩
  | 51 => ⟨S700000x128, .f32⟩
  | 52 => ⟨S700000x128, .f32⟩
  | 53 => ⟨S_, .f32⟩
  | 54 => ⟨S100000x128, .f32⟩
  | 55 => ⟨S700000x1, .i32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x64, .f32⟩
  | 64 => ⟨S100000, .i32⟩
  | 65 => ⟨S700000, .i32⟩
  | 66 => ⟨S700000, .i32⟩
  | 67 => ⟨S_, .f32⟩
  | 68 => ⟨S700000, .f32⟩
  | 69 => ⟨S_, .f32⟩
  | 70 => ⟨S100000, .f32⟩
  | 71 => ⟨S700000x1, .i32⟩
  | 72 => ⟨S100000, .f32⟩
  | 73 => ⟨S100000, .f32⟩
  | 74 => ⟨S_, .i32⟩
  | 75 => ⟨S700000, .i32⟩
  | 76 => ⟨S700000, .i1⟩
  | 77 => ⟨S_, .i32⟩
  | 78 => ⟨S700000, .i32⟩
  | 79 => ⟨S700000, .i32⟩
  | 80 => ⟨S700000, .i32⟩
  | 81 => ⟨S700000x1, .i32⟩
  | 82 => ⟨S700000, .f32⟩
  | 83 => ⟨S_, .i32⟩
  | 84 => ⟨S700000, .i32⟩
  | 85 => ⟨S700000, .i1⟩
  | 86 => ⟨S_, .i32⟩
  | 87 => ⟨S700000, .i32⟩
  | 88 => ⟨S700000, .i32⟩
  | 89 => ⟨S700000, .i32⟩
  | 90 => ⟨S700000x1, .i32⟩
  | 91 => ⟨S700000, .f32⟩
  | 92 => ⟨S700000, .f32⟩
  | 93 => ⟨S700000x1, .f32⟩
  | 94 => ⟨S_, .i32⟩
  | 95 => ⟨S700000, .i32⟩
  | 96 => ⟨S700000, .i1⟩
  | 97 => ⟨S_, .i32⟩
  | 98 => ⟨S700000, .i32⟩
  | 99 => ⟨S700000, .i32⟩
  | 100 => ⟨S700000, .i32⟩
  | 101 => ⟨S700000x1, .i32⟩
  | 102 => ⟨S700000x64, .f32⟩
  | 103 => ⟨S700000x64, .f32⟩
  | 104 => ⟨S700000x64, .f32⟩
  | 105 => ⟨S_, .f32⟩
  | 106 => ⟨S100000x64, .f32⟩
  | 107 => ⟨S700000x1, .i32⟩
  | 108 => ⟨S100000x64, .f32⟩
  | 109 => ⟨S1x64, .f32⟩
  | 110 => ⟨S100000x64, .f32⟩
  | 111 => ⟨S100000x64, .f32⟩
  | 112 => ⟨S2x1200000, .i32⟩
  | 113 => ⟨S1x1200000, .i32⟩
  | 114 => ⟨S1200000, .i32⟩
  | 115 => ⟨S_, .i32⟩
  | 116 => ⟨S1200000, .i32⟩
  | 117 => ⟨S1200000, .i1⟩
  | 118 => ⟨S_, .i32⟩
  | 119 => ⟨S1200000, .i32⟩
  | 120 => ⟨S1200000, .i32⟩
  | 121 => ⟨S1200000, .i32⟩
  | 122 => ⟨S1200000x1, .i32⟩
  | 123 => ⟨S1200000x64, .f32⟩
  | 124 => ⟨S1x1200000, .i32⟩
  | 125 => ⟨S1200000, .i32⟩
  | 126 => ⟨S_, .i32⟩
  | 127 => ⟨S1200000, .i32⟩
  | _ => ⟨S100000x1, .f32⟩

abbrev hbmTy0_1 (i : Nat) : BufTy := match i % 128 with
  | 0 => ⟨S1200000, .i1⟩
  | 1 => ⟨S_, .i32⟩
  | 2 => ⟨S1200000, .i32⟩
  | 3 => ⟨S1200000, .i32⟩
  | 4 => ⟨S1200000, .i32⟩
  | 5 => ⟨S1200000x1, .i32⟩
  | 6 => ⟨S1200000x64, .f32⟩
  | 7 => ⟨S1200000x64, .f32⟩
  | 8 => ⟨S_, .f32⟩
  | 9 => ⟨S1200000, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_v88 : Ref sig .tc := ⟨.hbm, 116, rfl⟩
abbrev main_v89 : Ref sig .tc := ⟨.hbm, 117, rfl⟩
abbrev main_c_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_18 : Ref sig .tc := ⟨.hbm, 126, rfl⟩
abbrev main_v97 : Ref sig .tc := ⟨.hbm, 127, rfl⟩
abbrev main_v98 : Ref sig .tc := ⟨.hbm, 128, rfl⟩
abbrev main_c_19 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_20 : Ref sig .tc := ⟨.hbm, 136, rfl⟩
abbrev main_v105 : Ref sig .tc := ⟨.hbm, 137, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x600000_S2x600000_S2x1200000_d1 : Shape.Concatenates [S2x600000, S2x600000] S2x1200000 1
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S2x1200000_S1x1200000_1_0 : S2x1200000.Slices ![1, 0] S1x1200000
  reducesTo_S1200000x64_S1200000_d1 : S1200000x64.ReducesTo [1] S1200000
  h_S_ : 0 < S_.numel
  dot_S100000x1_S1x128_S100000x128_1_0_0_1_n_n_wf : DotDims.WF S100000x1 S1x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  gather_S100000x64_S1200000x1_S1200000x64_1_0_n_n_0_1_164_wf : GatherDims.WF S100000x64 S1200000x1 S1200000x64 [1] [0] [] [0] [] 1 ![1, 64]

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf

class Facts : Prop extends Facts₀ where

variable [Facts]
-- ==== Proof.Spec.lean ====
import proofs.«151033_j10694468567328_1_alg».proof.ReferenceIdeal
import proofs.«151033_j10694468567328_1_alg».proof.Proof.Gen.ReferenceIdeal
import Idealize.ShloMosaic.PureOps.Ideal

/-! What each of the seven pallas_calls computes, as ONE whole-array function of the arrays it reads, written with the
    host operations the reference applies at the same place (so each is, by unfolding, a stage of the reference):
    the two dense transforms as the host's dot_general; the two norm-scale passes as the product with the norm column
    broadcast along the features (the product is commutative on the extended reals: the kernel multiplies message by
    norm, the reference norm by message); the bias passes as the sum with the bias row broadcast along the nodes, the
    first followed by the maximum with zero; the decode as the feature-wise product summed over the features. -/

noncomputable section

namespace Cert.Spec

open Idealize.ShloMosaic Cert.ReferenceIdeal

/-- x · W1: the first layer's dense transform. -/
def G0 (x : FVec Ideal S100000x1 .f32) (w : FVec Ideal S1x128 .f32) : FVec Ideal S100000x128 .f32 :=
  Host.dotGeneral dot_S100000x1_S1x128_S100000x128_1_0_0_1_n_n none x w

/-- The first layer's messages scaled by the edge norm: row e of the messages times norm e. -/
def G1 (msgs : FVec Ideal S700000x128 .f32) (n : FVec Ideal S700000x1 .f32) : FVec Ideal S700000x128 .f32 :=
  mulf (broadcastInDim S700000x128 ![0, 1] Facts₀.bcast_S700000x1_S700000x128_0_1 n) msgs

/-- The first layer's aggregate plus the bias row, then the maximum with zero. -/
def G2 (a : FVec Ideal S100000x128 .f32) (b : FVec Ideal S1x128 .f32) : FVec Ideal S100000x128 .f32 :=
  maximumf (addf a (broadcastInDim S100000x128 ![0, 1] Facts₀.bcast_S1x128_S100000x128_0_1 b))
    (broadcastInDim S100000x128 ![] Facts₀.bcast_S_S100000x128 (constant (F := Ideal) S_ .f32 0x00000000#32))

/-- h · W2: the second layer's dense transform. -/
def G3 (h : FVec Ideal S100000x128 .f32) (w : FVec Ideal S128x64 .f32) : FVec Ideal S100000x64 .f32 :=
  Host.dotGeneral dot_S100000x128_S128x64_S100000x64_1_0_0_1_n_n none h w

/-- The second layer's messages scaled by the edge norm. -/
def G4 (msgs : FVec Ideal S700000x64 .f32) (n : FVec Ideal S700000x1 .f32) : FVec Ideal S700000x64 .f32 :=
  mulf (broadcastInDim S700000x64 ![0, 1] Facts₀.bcast_S700000x1_S700000x64_0_1 n) msgs

/-- The second layer's aggregate plus the bias row. -/
def G5 (a : FVec Ideal S100000x64 .f32) (b : FVec Ideal S1x64 .f32) : FVec Ideal S100000x64 .f32 :=
  addf a (broadcastInDim S100000x64 ![0, 1] Facts₀.bcast_S1x64_S100000x64_0_1 b)

/-- The edge scores before the last reshape: the one-column array whose entry e is the sum over the features of the
    product of the two endpoint embeddings. -/
def G6 (zi zj : FVec Ideal S1200000x64 .f32) : FVec Ideal S1200000x1 .f32 :=
  broadcastInDim S1200000x1 ![0] Facts₀.bcast_S1200000_S1200000x1_0
    (Host.reduceAdd (mulf zi zj) (constant (F := Ideal) S_ .f32 0x00000000#32) Facts₀.reducesTo_S1200000x64_S1200000_d1 Facts₀.h_S_)

end Cert.Spec

end
-- ==== Proof.Layout.lean ====
import Idealize.ShloMosaic.Lib.Pipeline.Value
import Idealize.ShloMosaic.Lib.ValueIdx

/-! Three facts about arrays with a unit axis, each read index by index: a vector reshaped to one column, or to one
    row, is the vector broadcast along the new unit axis; and a one-column array made from a vector, reshaped back to
    a vector, is the vector. -/

namespace Cert.Layout

open Idealize.ShloMosaic Idealize.ShloMosaic.ValueIdx

/-- A vector of n entries reshaped to [n, 1] is the vector broadcast along a new trailing unit axis. -/
theorem shapeCast_col {α : Type} {n : Nat} (hn : n ≠ 1) (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ ![0] h' v := by
  funext j
  -- an index of [n, 1] is (p, u) with u = 0; both sides read the vector at p
  obtain ⟨p, u, rfl⟩ : ∃ (p : Fin n) (u : Fin 1), j = ix2 p u := ⟨j 0, j 1, eq_ix2 j⟩
  have hu : u.val = 0 := by omega
  refine (shapeCast_apply v h (ix2 p u) (ix1 p) ?_).trans (broadcastInDim_apply ![0] h' v (ix2 p u) (ix1 p) ?_).symm
  · -- row-major positions: p on the left, p * 1 + u on the right
    rw [Shape.rowMajor_val_two, Shape.rowMajor_val_one]
    show p.val = p.val * 1 + u.val
    omega
  · intro a
    match a with
    | ⟨0, _⟩ => show p.val = if n = 1 then 0 else p.val; rw [if_neg hn]

/-- A vector of n entries reshaped to [1, n] is the vector broadcast along a new leading unit axis. -/
theorem shapeCast_row {α : Type} {n : Nat} (hn : n ≠ 1) (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ ![1] h' v := by
  funext j
  -- an index of [1, n] is (u, p) with u = 0; both sides read the vector at p
  obtain ⟨u, p, rfl⟩ : ∃ (u : Fin 1) (p : Fin n), j = ix2 u p := ⟨j 0, j 1, eq_ix2 j⟩
  have hu : u.val = 0 := by omega
  refine (shapeCast_apply v h (ix2 u p) (ix1 p) ?_).trans (broadcastInDim_apply ![1] h' v (ix2 u p) (ix1 p) ?_).symm
  · -- row-major positions: p on the left, u * n + p on the right
    rw [Shape.rowMajor_val_two, Shape.rowMajor_val_one]
    show p.val = u.val * n + p.val
    rw [hu, Nat.zero_mul, Nat.zero_add]
  · intro a
    match a with
    | ⟨0, _⟩ => show p.val = if n = 1 then 0 else p.val; rw [if_neg hn]

/-- The one-column array made from a vector, reshaped back to a vector, is the vector. -/
theorem shapeCast_uncol {α : Type} {n : Nat} (hn : n ≠ 1) (v : (⟨1, ![n]⟩ : Shape).Idx → α)
    (h' : (⟨1, ![n]⟩ : Shape).BroadcastsInDim ⟨2, ![n, 1]⟩ (![0] : Fin 1 → Fin 2))
    (h : (⟨2, ![n, 1]⟩ : Shape).ShapeCasts ⟨1, ![n]⟩) :
    shapeCast ⟨1, ![n]⟩ (broadcastInDim ⟨2, ![n, 1]⟩ ![0] h' v) h = v := by
  funext j
  -- entry p of the reshaped array is entry (p, 0) of the column, which is entry p of the vector
  obtain ⟨p, rfl⟩ : ∃ p : Fin n, j = ix1 p := ⟨j 0, eq_ix1 j⟩
  refine (shapeCast_apply (broadcastInDim ⟨2, ![n, 1]⟩ ![0] h' v) h (ix1 p) (ix2 p (0 : Fin 1)) ?_).trans
    (broadcastInDim_apply ![0] h' v (ix2 p (0 : Fin 1)) (ix1 p) ?_)
  · -- row-major positions: p * 1 + 0 on the left, p on the right
    rw [Shape.rowMajor_val_two, Shape.rowMajor_val_one]
    show p.val * 1 + 0 = p.val
    omega
  · intro a
    match a with
    | ⟨0, _⟩ => show p.val = if n = 1 then 0 else p.val; rw [if_neg hn]

end Cert.Layout
-- ==== Proof.Region0.lean ====
import proofs.«151033_j10694468567328_1_alg».proof.Proof.Gen.KernelIdeal.Frame
import proofs.«151033_j10694468567328_1_alg».proof.Proof.Gen.ReferenceIdeal.Read
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, as it finds them, at their literal types. -/
abbrev xin (c : Dev nD) : FVec Ideal S100000x1 .f32 := V c main_arg0
abbrev wmat (c : Dev nD) : FVec Ideal S1x128 .f32 := V c main_arg3

open Cert.Spec (G0)

/-- Entry (r, f) of x · W is the sum over the one contraction index k of x (r, k) times W (k, f). -/
theorem G0_apply (x : FVec Ideal S100000x1 .f32) (w : FVec Ideal S1x128 .f32) (r : Fin 100000) (q : Fin 128) :
    G0 x w (ix2 r q) = ∑ k : Fin 1, x (ix2 r k) * w (ix2 k q) := by
  refine (Cert.ReferenceIdeal.Read.val_main_v4_apply x w (ix2 r q)).trans ?_
  refine Finset.sum_congr rfl fun k _ => ?_
  have el : Cert.ReferenceIdeal.Read.lidx_main_v4 (ix2 r q) k = ix2 r k :=
    funext fun a => Fin.ext (by match a with | ⟨0, _⟩ => rfl | ⟨1, _⟩ => rfl)
  have er : Cert.ReferenceIdeal.Read.ridx_main_v4 (ix2 r q) k = ix2 k q :=
    funext fun a => Fin.ext (by match a with | ⟨0, _⟩ => rfl | ⟨1, _⟩ => rfl)
  rw [el, er]

/-- The left operand's index at output index i and contraction index k: its row is the output's row. -/
theorem lhs_row (i : S2000x128.Idx) (k : Cert.KernelIdeal.dot_S2000x1_S1x128_S2000x128_1_0_0_1_n_n.contr.Idx) :
    (Cert.KernelIdeal.dot_S2000x1_S1x128_S2000x128_1_0_0_1_n_n.lhsIdx i k 0).val = (i 0).val := by
  unfold DotDims.lhsIdx
  rw [dif_neg (show ¬(0 : Fin S2000x1.rank) ∈ Cert.KernelIdeal.dot_S2000x1_S1x128_S2000x128_1_0_0_1_n_n.lhsBatch by decide), dif_pos (show (0 : Fin S2000x1.rank) ∈ Cert.KernelIdeal.dot_S2000x1_S1x128_S2000x128_1_0_0_1_n_n.lhsNonContracting by decide)]
  rfl
/-- Its column is the contraction index. -/
theorem lhs_col (i : S2000x128.Idx) (k : Cert.KernelIdeal.dot_S2000x1_S1x128_S2000x128_1_0_0_1_n_n.contr.Idx) :
    (Cert.KernelIdeal.dot_S2000x1_S1x128_S2000x128_1_0_0_1_n_n.lhsIdx i k 1).val = (k ⟨0, by decide⟩).val :=
  Cert.KernelIdeal.dot_S2000x1_S1x128_S2000x128_1_0_0_1_n_n.lhsIdx_val_of_single rfl i k
/-- The right operand's row is the contraction index. -/
theorem rhs_row (i : S2000x128.Idx) (k : Cert.KernelIdeal.dot_S2000x1_S1x128_S2000x128_1_0_0_1_n_n.contr.Idx) :
    (Cert.KernelIdeal.dot_S2000x1_S1x128_S2000x128_1_0_0_1_n_n.rhsIdx i k 0).val = (k ⟨0, by decide⟩).val :=
  Cert.KernelIdeal.dot_S2000x1_S1x128_S2000x128_1_0_0_1_n_n.rhsIdx_val_of_single rfl i k
/-- Its column is the output's column. -/
theorem rhs_col (i : S2000x128.Idx) (k : Cert.KernelIdeal.dot_S2000x1_S1x128_S2000x128_1_0_0_1_n_n.contr.Idx) :
    (Cert.KernelIdeal.dot_S2000x1_S1x128_S2000x128_1_0_0_1_n_n.rhsIdx i k 1).val = (i 1).val := by
  unfold DotDims.rhsIdx
  rw [dif_neg (show ¬(1 : Fin S1x128.rank) ∈ Cert.KernelIdeal.dot_S2000x1_S1x128_S2000x128_1_0_0_1_n_n.rhsBatch by decide), dif_pos (show (1 : Fin S1x128.rank) ∈ Cert.KernelIdeal.dot_S2000x1_S1x128_S2000x128_1_0_0_1_n_n.rhsNonContracting by decide)]
  rfl

/-- The body's stored value at a block coordinate (p, f): the sum over k of the row block's (p, k) times the matrix's (k, f). -/
theorem pay_apply (x0 : Vec Ideal S2000x1 .f32) (x1 : Vec Ideal S1x128 .f32) (p : Fin 2000) (q : Fin 128) :
    k0_pay1 x0 x1 (ix2 p q) = ∑ k : Fin 1, x0 (ix2 p k) * x1 (ix2 k q) := by
  unfold k0_pay1
  refine (Ideal.matmul_constant_zero_apply Cert.KernelIdeal.dot_S2000x1_S1x128_S2000x128_1_0_0_1_n_n none
    (truncf .bf16 x0 bitsLt_bf16_f32) (truncf .bf16 x1 bitsLt_bf16_f32) (ix2 p q)).trans ?_
  rw [← Equiv.sum_comp (ValueIdx.contrEquiv1 Cert.KernelIdeal.dot_S2000x1_S1x128_S2000x128_1_0_0_1_n_n 1 rfl rfl).symm]
  refine Finset.sum_congr rfl fun k _ => ?_
  have hk := ValueIdx.contrEquiv1_symm_val Cert.KernelIdeal.dot_S2000x1_S1x128_S2000x128_1_0_0_1_n_n 1 rfl rfl k
  have el : Cert.KernelIdeal.dot_S2000x1_S1x128_S2000x128_1_0_0_1_n_n.lhsIdx (ix2 p q) ((ValueIdx.contrEquiv1 Cert.KernelIdeal.dot_S2000x1_S1x128_S2000x128_1_0_0_1_n_n 1 rfl rfl).symm k) = ix2 p k := funext fun a => Fin.ext (by
    match a with
    | ⟨0, _⟩ => exact lhs_row _ _
    | ⟨1, _⟩ => exact (lhs_col _ _).trans hk)
  have er : Cert.KernelIdeal.dot_S2000x1_S1x128_S2000x128_1_0_0_1_n_n.rhsIdx (ix2 p q) ((ValueIdx.contrEquiv1 Cert.KernelIdeal.dot_S2000x1_S1x128_S2000x128_1_0_0_1_n_n 1 rfl rfl).symm k) = ix2 k q := funext fun a => Fin.ext (by
    match a with
    | ⟨0, _⟩ => exact (rhs_row _ _).trans hk
    | ⟨1, _⟩ => exact rhs_col _ _)
  rw [el, er]
  rfl

/-- One point, one entry: if the row block holds row r of x and the matrix block holds W, the stored value is the function's. -/
theorem point_eq (A : FVec Ideal S100000x1 .f32) (B : FVec Ideal S1x128 .f32) (x0 : Vec Ideal S2000x1 .f32) (x1 : Vec Ideal S1x128 .f32)
    (p : Fin 2000) (q : Fin 128) (r : Fin 100000) (h0 : ∀ k : Fin 1, x0 (ix2 p k) = A (ix2 r k)) (h1 : ∀ k : Fin 1, x1 (ix2 k q) = B (ix2 k q)) :
    k0_pay1 x0 x1 (ix2 p q) = G0 A B (ix2 r q) := by
  rw [pay_apply, G0_apply]
  exact Finset.sum_congr rfl fun k _ => by rw [h0 k, h1 k]

theorem hz : (![0, 0] : Fin 2 → Nat) = fun _ => 0 := funext fun a => by fin_cases a <;> rfl

/-- The printed index maps over the grid: point t takes row block t of x and of the result, and the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the whole-array function. -/
theorem flushed_eq (c : Dev nD) (t : Fin cfg0.N) :
    (dat0 V c).flushed 2 t = ((cfg0.win 2).blk t).view.read (Elt Ideal) (G0 (xin V c) (wmat V c)) := by
  show (cfg0.win 2).cut (grid0.coords t) ((dat0 V c).after 2 t) = _
  rw [after0_2]
  unfold out0_2
  rw [View.canon_unit_zero hz]
  simp only [View.ld_unit_zero (S := S2000x1) hz, View.ld_unit_zero (S := S1x128) hz]
  obtain ⟨e00, e01, e10, e11, e20, e21⟩ := idx_facts t
  have hN : t.val < 50 := Nat.lt_of_lt_of_eq t.isLt N_0
  funext j
  obtain ⟨p, q, rfl⟩ : ∃ (p : Fin 2000) (q : Fin 128), j = ix2 p q := ⟨j 0, j 1, eq_ix2 j⟩
  have hp : p.val < 2000 := p.isLt
  have hr : t.val * 2000 + p.val < 100000 := by omega
  have hemb : ((cfg0.win 2).blk t).view.emb (ix2 p q) = ix2 (⟨t.val * 2000 + p.val, hr⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q) = G0 (xin V c) (wmat V c) (((cfg0.win 2).blk t).view.emb (ix2 p q))
  rw [hemb]
  refine point_eq (xin V c) (wmat V c) (iblk0 V c 0 t) (iblk0 V c 1 t) p q _ ?_ ?_
  · intro k
    show V c main_arg0 (((cfg0.win 0).blk t).view.emb (ix2 p k)) = V c main_arg0 (ix2 (⟨t.val * 2000 + p.val, hr⟩ : Fin 100000) k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 1 + 1 * k.val = k.val; omega
  · intro k
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 1 + 1 * k.val = k.val; omega
    | ⟨1, _⟩ => show win0_1.index t (1 : Fin 2) * 128 + 1 * q.val = q.val; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- The fifty row blocks tile the array: row r lies in block r / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e00, e01, e10, e11, e20, e21⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the result array `main_v28` is x · W1, row block by row block. -/
theorem value (c : Dev nD) : (dat0 V c).arrAt 2 cfg0.N = Cert.Spec.G0 (xin V c) (wmat V c) :=
  (dat0 V c).arrAt_eq_of_cover 2 (G0 (xin V c) (wmat V c)) (fun t _ => flushed_eq V c t) cover

end Cert.KernelIdeal.Region0

end
-- ==== Proof.Region1.lean ====
import proofs.«151033_j10694468567328_1_alg».proof.Proof.Gen.KernelIdeal.Frame
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, as it finds them, at their literal types. -/
abbrev msgs (c : Dev nD) : FVec Ideal S700000x128 .f32 := V c main_v35
abbrev ncol (c : Dev nD) : FVec Ideal S700000x1 .f32 := V c main_v27

open Cert.Spec (G1)

/-- Entry (r, f) of the result is entry r of the norm column times entry (r, f) of the messages: the norm column is
    broadcast along the features (its axis 1 has extent 1, so every feature reads its entry 0). -/
theorem G1_apply (m : FVec Ideal S700000x128 .f32) (n : FVec Ideal S700000x1 .f32) (r : Fin 700000) (q : Fin 128) :
    G1 m n (ix2 r q) = n (ix2 r (0 : Fin 1)) * m (ix2 r q) := by
  unfold G1
  rw [mulf_apply]
  refine congrArg (· * m (ix2 r q)) ?_
  exact broadcastInDim_apply _ _ n (ix2 r q) (ix2 r (0 : Fin 1)) (fun d => match d with
    | ⟨0, _⟩ => by show r.val = if (700000 : Nat) = 1 then 0 else r.val; rw [if_neg (by decide)]
    | ⟨1, _⟩ => by show (0 : Nat) = if (1 : Nat) = 1 then 0 else q.val; rw [if_pos rfl])

/-- The body's stored value at a block coordinate (p, f): the message block's entry (p, f) times the norm block's
    entry (p, 0), the norm block broadcast along the features. -/
theorem pay_apply (x0 : Vec Ideal S4000x128 .f32) (x1 : Vec Ideal S4000x1 .f32) (p : Fin 4000) (q : Fin 128) :
    k1_pay1 x0 x1 (ix2 p q) = x0 (ix2 p q) * x1 (ix2 p (0 : Fin 1)) := by
  unfold k1_pay1
  simp only [mulf_apply, shapeCast_self]
  refine congrArg (x0 (ix2 p q) * ·) ?_
  exact broadcastTo_apply x1 _ (ix2 p q) (ix2 p (0 : Fin 1)) (fun d => match d with
    | ⟨0, _⟩ => by show p.val = if (4000 : Nat) = 1 then 0 else p.val; rw [if_neg (by decide)]
    | ⟨1, _⟩ => by show (0 : Nat) = if (1 : Nat) = 1 then 0 else q.val; rw [if_pos rfl])

/-- One point, one entry: if the two blocks hold the arrays' entries at row r, the stored value is the function's.
    The body multiplies message by norm, the function norm by message: the product commutes on the extended reals. -/
theorem point_eq (A : FVec Ideal S700000x128 .f32) (B : FVec Ideal S700000x1 .f32) (x0 : Vec Ideal S4000x128 .f32) (x1 : Vec Ideal S4000x1 .f32)
    (p : Fin 4000) (q : Fin 128) (r : Fin 700000) (h0 : x0 (ix2 p q) = A (ix2 r q)) (h1 : x1 (ix2 p (0 : Fin 1)) = B (ix2 r (0 : Fin 1))) :
    k1_pay1 x0 x1 (ix2 p q) = G1 A B (ix2 r q) := by
  rw [pay_apply, G1_apply, h0, h1, mul_comm]

theorem hz : (![0, 0] : Fin 2 → Nat) = fun _ => 0 := funext fun a => by fin_cases a <;> rfl

/-- The printed index maps over the grid: point t takes row block t of the messages, of the norm column and of the result. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is row block t of the whole-array function: entry (p, f) of the block is row
    t · 4000 + p of the array, in the messages, in the norm column and in the result alike. -/
theorem flushed_eq (c : Dev nD) (t : Fin cfg1.N) :
    (dat1 V c).flushed 2 t = ((cfg1.win 2).blk t).view.read (Elt Ideal) (G1 (msgs V c) (ncol V c)) := by
  show (cfg1.win 2).cut (grid1.coords t) ((dat1 V c).after 2 t) = _
  rw [after1_2]
  unfold out1_2
  rw [View.canon_unit_zero hz]
  simp only [View.ld_unit_zero (S := S4000x128) hz, View.ld_unit_zero (S := S4000x1) hz]
  obtain ⟨e00, e01, e10, e11, e20, e21⟩ := idx_facts t
  have hN : t.val < 175 := Nat.lt_of_lt_of_eq t.isLt N_1
  funext j
  obtain ⟨p, q, rfl⟩ : ∃ (p : Fin 4000) (q : Fin 128), j = ix2 p q := ⟨j 0, j 1, eq_ix2 j⟩
  have hp : p.val < 4000 := p.isLt
  have hr : t.val * 4000 + p.val < 700000 := by omega
  have hemb : ((cfg1.win 2).blk t).view.emb (ix2 p q) = ix2 (⟨t.val * 4000 + p.val, hr⟩ : Fin 700000) q := by
    funext a; apply Fin.ext
    match a with
    | ⟨0, _⟩ => show win1_2.index t (0 : Fin 2) * 4000 + 1 * p.val = t.val * 4000 + p.val; omega
    | ⟨1, _⟩ => show win1_2.index t (1 : Fin 2) * 128 + 1 * q.val = q.val; omega
  show k1_pay1 (iblk1 V c 0 t) (iblk1 V c 1 t) (ix2 p q) = G1 (msgs V c) (ncol V c) (((cfg1.win 2).blk t).view.emb (ix2 p q))
  rw [hemb]
  refine point_eq (msgs V c) (ncol V c) (iblk1 V c 0 t) (iblk1 V c 1 t) p q _ ?_ ?_
  · show V c main_v35 (((cfg1.win 0).blk t).view.emb (ix2 p q)) = V c main_v35 (ix2 (⟨t.val * 4000 + p.val, hr⟩ : Fin 700000) q)
    refine congrArg (V c main_v35) ?_
    funext a; apply Fin.ext
    match a with
    | ⟨0, _⟩ => show win1_0.index t (0 : Fin 2) * 4000 + 1 * p.val = t.val * 4000 + p.val; omega
    | ⟨1, _⟩ => show win1_0.index t (1 : Fin 2) * 128 + 1 * q.val = q.val; omega
  · show V c main_v27 (((cfg1.win 1).blk t).view.emb (ix2 p (0 : Fin 1))) = V c main_v27 (ix2 (⟨t.val * 4000 + p.val, hr⟩ : Fin 700000) (0 : Fin 1))
    refine congrArg (V c main_v27) ?_
    funext a; apply Fin.ext
    match a with
    | ⟨0, _⟩ => show win1_1.index t (0 : Fin 2) * 4000 + 1 * p.val = t.val * 4000 + p.val; omega
    | ⟨1, _⟩ => show win1_1.index t (1 : Fin 2) * 1 + 1 * 0 = 0; omega

/-- An index of the array is in point t's block iff each coordinate is in the block's range on its axis. -/
theorem mem_blk (t : Fin cfg1.N) (i : S700000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v36).slice (win1_2.rect t)).set ↔ _
  rw [View.set_slice_whole, Rect.mem_set_unit]
  exact Iff.rfl

/-- The 175 row blocks tile the array: row r lies in block r / 4000. -/
theorem cover (i : S700000x128.Idx) : ∃ t : Fin cfg1.N, (cfg1.win 2).flush t = true ∧ i ∈ ((cfg1.win 2).blk t).view.set := by
  have hi0 : (i 0).val < 700000 := (i 0).isLt
  have hi1 : (i 1).val < 128 := (i 1).isLt
  have hN : cfg1.N = 175 := N_1
  let t : Fin cfg1.N := ⟨(i 0).val / 4000, by rw [hN]; omega⟩
  obtain ⟨e00, e01, e10, e11, e20, e21⟩ := idx_facts t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- After the region the result array `main_v36` is the messages scaled by the norm column. -/
theorem value (c : Dev nD) : (dat1 V c).arrAt 2 cfg1.N = Cert.Spec.G1 (msgs V c) (ncol V c) :=
  (dat1 V c).arrAt_eq_of_cover 2 (G1 (msgs V c) (ncol V c)) (fun t _ => flushed_eq V c t) cover

end Cert.KernelIdeal.Region1

end
-- ==== Proof.ChainA.lean ====
import proofs.«151033_j10694468567328_1_alg».proof.Proof.Gen.KernelIdeal.Frame
import proofs.«151033_j10694468567328_1_alg».proof.Proof.Gen.ReferenceIdeal.Read
import proofs.«151033_j10694468567328_1_alg».proof.Proof.Spec
import proofs.«151033_j10694468567328_1_alg».proof.Proof.Layout
import proofs.«151033_j10694468567328_1_alg».proof.Proof.Region0
import proofs.«151033_j10694468567328_1_alg».proof.Proof.Region1

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg)

/-- The seven arguments as launched, at their literal types. -/
abbrev a0 (c : Dev nD) : (⟨S100000x1, .f32⟩ : BufTy).Contents (Elt Ideal) := m ((c : Thread nD τ).loc main_arg0)
abbrev a1 (c : Dev nD) : (⟨S2x600000, .i32⟩ : BufTy).Contents (Elt Ideal) := m ((c : Thread nD τ).loc main_arg1)
abbrev a2 (c : Dev nD) : (⟨S2x600000, .i32⟩ : BufTy).Contents (Elt Ideal) := m ((c : Thread nD τ).loc main_arg2)
abbrev a3 (c : Dev nD) : (⟨S1x128, .f32⟩ : BufTy).Contents (Elt Ideal) := m ((c : Thread nD τ).loc main_arg3)
abbrev a4 (c : Dev nD) : (⟨S128, .f32⟩ : BufTy).Contents (Elt Ideal) := m ((c : Thread nD τ).loc main_arg4)
abbrev a5 (c : Dev nD) : (⟨S128x64, .f32⟩ : BufTy).Contents (Elt Ideal) := m ((c : Thread nD τ).loc main_arg5)
abbrev a6 (c : Dev nD) : (⟨S64, .f32⟩ : BufTy).Contents (Elt Ideal) := m ((c : Thread nD τ).loc main_arg6)

/-! ## Before the first dense transform: the edge lists with self loops, and the norm column

The host operations before the first pallas_call write no argument; they leave the source and target lists with the
self loops appended, and the edge norm (the product of the two gathered inverse square roots of the in-degree) as one
column. A vector reshaped to one column is the vector broadcast along the new unit axis. -/
theorem W1_arg0 (c : Dev nD) : W1 m ρ c (Proc.devRef .tc main_arg0) = a0 m c := by
  show StableHlo.after hostOps0 (W0 m ρ c) (Proc.devRef .tc main_arg0) = _
  after_results_simp
theorem W1_arg1 (c : Dev nD) : W1 m ρ c (Proc.devRef .tc main_arg1) = a1 m c := by
  show StableHlo.after hostOps0 (W0 m ρ c) (Proc.devRef .tc main_arg1) = _
  after_results_simp
theorem W1_arg2 (c : Dev nD) : W1 m ρ c (Proc.devRef .tc main_arg2) = a2 m c := by
  show StableHlo.after hostOps0 (W0 m ρ c) (Proc.devRef .tc main_arg2) = _
  after_results_simp
theorem W1_arg3 (c : Dev nD) : W1 m ρ c (Proc.devRef .tc main_arg3) = a3 m c := by
  show StableHlo.after hostOps0 (W0 m ρ c) (Proc.devRef .tc main_arg3) = _
  after_results_simp
theorem W1_arg4 (c : Dev nD) : W1 m ρ c (Proc.devRef .tc main_arg4) = a4 m c := by
  show StableHlo.after hostOps0 (W0 m ρ c) (Proc.devRef .tc main_arg4) = _
  after_results_simp
theorem W1_arg5 (c : Dev nD) : W1 m ρ c (Proc.devRef .tc main_arg5) = a5 m c := by
  show StableHlo.after hostOps0 (W0 m ρ c) (Proc.devRef .tc main_arg5) = _
  after_results_simp
theorem W1_arg6 (c : Dev nD) : W1 m ρ c (Proc.devRef .tc main_arg6) = a6 m c := by
  show StableHlo.after hostOps0 (W0 m ρ c) (Proc.devRef .tc main_arg6) = _
  after_results_simp

theorem W1_v5 (c : Dev nD) : W1 m ρ c (Proc.devRef .tc main_v5) = val_main_v6 (F := Ideal) (a1 m c) := by
  show StableHlo.after hostOps0 (W0 m ρ c) (Proc.devRef .tc main_v5) = _
  after_results_simp
  rfl

theorem W1_v6 (c : Dev nD) : W1 m ρ c (Proc.devRef .tc main_v6) = val_main_v7 (F := Ideal) (a1 m c) := by
  show StableHlo.after hostOps0 (W0 m ρ c) (Proc.devRef .tc main_v6) = _
  after_results_simp
  rfl

theorem W1_v27 (c : Dev nD) : W1 m ρ c (Proc.devRef .tc main_v27) = val_main_v28 (F := Ideal) (a1 m c) := by
  show StableHlo.after hostOps0 (W0 m ρ c) (Proc.devRef .tc main_v27) = _
  after_results_simp
  refine (Cert.Layout.shapeCast_col (n := 700000) (by decide) _ _ Cert.ReferenceIdeal.Facts₀.bcast_S700000_S700000x1_0).trans ?_
  rfl

/-! ## The first dense transform, and the arrays it leaves alone -/

theorem W2_v28 (c : Dev nD) : W2 m ρ c (Proc.devRef .tc main_v28) = val_main_v4 (F := Ideal) (a0 m c) (a3 m c) :=
  ((W2_arr m ρ c 2).trans (Region0.value (V1 m ρ) c)).trans (congrArg₂ Cert.Spec.G0 (W1_arg0 m ρ c) (W1_arg3 m ρ c))

theorem W2_v5 (c : Dev nD) : W2 m ρ c (Proc.devRef .tc main_v5) = val_main_v6 (F := Ideal) (a1 m c) :=
  (W2_of_ne m ρ c main_v5 (by decide)).trans (W1_v5 m ρ c)
theorem W2_v6 (c : Dev nD) : W2 m ρ c (Proc.devRef .tc main_v6) = val_main_v7 (F := Ideal) (a1 m c) :=
  (W2_of_ne m ρ c main_v6 (by decide)).trans (W1_v6 m ρ c)
theorem W2_v27 (c : Dev nD) : W2 m ρ c (Proc.devRef .tc main_v27) = val_main_v28 (F := Ideal) (a1 m c) :=
  (W2_of_ne m ρ c main_v27 (by decide)).trans (W1_v27 m ρ c)
theorem W2_arg1 (c : Dev nD) : W2 m ρ c (Proc.devRef .tc main_arg1) = a1 m c :=
  (W2_of_ne m ρ c main_arg1 (by decide)).trans (W1_arg1 m ρ c)
theorem W2_arg2 (c : Dev nD) : W2 m ρ c (Proc.devRef .tc main_arg2) = a2 m c :=
  (W2_of_ne m ρ c main_arg2 (by decide)).trans (W1_arg2 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)

/-! ## The gather of the transformed rows along the source list -/

theorem W3_v35 (c : Dev nD) : W3 m ρ c (Proc.devRef .tc main_v35) = val_main_v35 (F := Ideal) (a0 m c) (a1 m c) (a3 m c) := by
  show StableHlo.after hostOps1 (W2 m ρ c) (Proc.devRef .tc main_v35) = _
  after_results_simp
  rw [W2_v28 m ρ c, W2_v5 m ρ c]
  rfl

theorem W3_v5 (c : Dev nD) : W3 m ρ c (Proc.devRef .tc main_v5) = val_main_v6 (F := Ideal) (a1 m c) :=
  (show StableHlo.after hostOps1 (W2 m ρ c) (Proc.devRef .tc main_v5) = W2 m ρ c (Proc.devRef .tc main_v5) by after_results_simp).trans (W2_v5 m ρ c)
theorem W3_v6 (c : Dev nD) : W3 m ρ c (Proc.devRef .tc main_v6) = val_main_v7 (F := Ideal) (a1 m c) :=
  (show StableHlo.after hostOps1 (W2 m ρ c) (Proc.devRef .tc main_v6) = W2 m ρ c (Proc.devRef .tc main_v6) by after_results_simp).trans (W2_v6 m ρ c)
theorem W3_v27 (c : Dev nD) : W3 m ρ c (Proc.devRef .tc main_v27) = val_main_v28 (F := Ideal) (a1 m c) :=
  (show StableHlo.after hostOps1 (W2 m ρ c) (Proc.devRef .tc main_v27) = W2 m ρ c (Proc.devRef .tc main_v27) by after_results_simp).trans (W2_v27 m ρ c)
theorem W3_arg1 (c : Dev nD) : W3 m ρ c (Proc.devRef .tc main_arg1) = a1 m c :=
  (show StableHlo.after hostOps1 (W2 m ρ c) (Proc.devRef .tc main_arg1) = W2 m ρ c (Proc.devRef .tc main_arg1) by after_results_simp).trans (W2_arg1 m ρ c)
theorem W3_arg2 (c : Dev nD) : W3 m ρ c (Proc.devRef .tc main_arg2) = a2 m c :=
  (show StableHlo.after hostOps1 (W2 m ρ c) (Proc.devRef .tc main_arg2) = W2 m ρ c (Proc.devRef .tc main_arg2) by after_results_simp).trans (W2_arg2 m ρ c)
theorem W3_arg4 (c : Dev nD) : W3 m ρ c (Proc.devRef .tc main_arg4) = a4 m c :=
  (show StableHlo.after hostOps1 (W2 m ρ c) (Proc.devRef .tc main_arg4) = W2 m ρ c (Proc.devRef .tc main_arg4) by after_results_simp).trans (W2_arg4 m ρ c)
theorem W3_arg5 (c : Dev nD) : W3 m ρ c (Proc.devRef .tc main_arg5) = a5 m c :=
  (show StableHlo.after hostOps1 (W2 m ρ c) (Proc.devRef .tc main_arg5) = W2 m ρ c (Proc.devRef .tc main_arg5) by after_results_simp).trans (W2_arg5 m ρ c)
theorem W3_arg6 (c : Dev nD) : W3 m ρ c (Proc.devRef .tc main_arg6) = a6 m c :=
  (show StableHlo.after hostOps1 (W2 m ρ c) (Proc.devRef .tc main_arg6) = W2 m ρ c (Proc.devRef .tc main_arg6) by after_results_simp).trans (W2_arg6 m ρ c)

/-! ## The first norm-scale pass -/

theorem W4_v36 (c : Dev nD) : W4 m ρ c (Proc.devRef .tc main_v36) = val_main_v37 (F := Ideal) (a0 m c) (a1 m c) (a3 m c) :=
  ((W4_arr m ρ c 2).trans (Region1.value (V3 m ρ) c)).trans (congrArg₂ Cert.Spec.G1 (W3_v35 m ρ c) (W3_v27 m ρ c))

theorem W4_v5 (c : Dev nD) : W4 m ρ c (Proc.devRef .tc main_v5) = val_main_v6 (F := Ideal) (a1 m c) :=
  (W4_of_ne m ρ c main_v5 (by decide)).trans (W3_v5 m ρ c)
theorem W4_v6 (c : Dev nD) : W4 m ρ c (Proc.devRef .tc main_v6) = val_main_v7 (F := Ideal) (a1 m c) :=
  (W4_of_ne m ρ c main_v6 (by decide)).trans (W3_v6 m ρ c)
theorem W4_arg1 (c : Dev nD) : W4 m ρ c (Proc.devRef .tc main_arg1) = a1 m c :=
  (W4_of_ne m ρ c main_arg1 (by decide)).trans (W3_arg1 m ρ c)
theorem W4_arg2 (c : Dev nD) : W4 m ρ c (Proc.devRef .tc main_arg2) = a2 m c :=
  (W4_of_ne m ρ c main_arg2 (by decide)).trans (W3_arg2 m ρ c)
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)
theorem W4_v27 (c : Dev nD) : W4 m ρ c (Proc.devRef .tc main_v27) = val_main_v28 (F := Ideal) (a1 m c) :=
  ((W4_arr m ρ c 1).trans (((dat1 (V3 m ρ) c).arrAt_in 1 rfl _).trans (A_eq1 (V3 m ρ) c 1))).trans (W3_v27 m ρ c)

end Cert.KernelIdeal.Chain

end
-- ==== Proof.Region2.lean ====
import proofs.«151033_j10694468567328_1_alg».proof.Proof.Gen.KernelIdeal.Frame
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, as it finds them, at their literal types. -/
abbrev agg (c : Dev nD) : FVec Ideal S100000x128 .f32 := V c main_v39
abbrev brow (c : Dev nD) : FVec Ideal S1x128 .f32 := V c main_v40

open Cert.Spec (G2)

/-- Entry (r, f) of the result is the larger of zero and entry (r, f) of the aggregate plus entry f of the bias row. -/
theorem G2_apply (a : FVec Ideal S100000x128 .f32) (b : FVec Ideal S1x128 .f32) (r : Fin 100000) (q : Fin 128) :
    G2 a b (ix2 r q) = max (a (ix2 r q) + b (ix2 (0 : Fin 1) q)) (Ideal.ofBits .f32 0x00000000#32) := by
  unfold G2
  rw [maximumf_apply, addf_apply]
  have hb : broadcastInDim S100000x128 ![0, 1] Cert.ReferenceIdeal.Facts₀.bcast_S1x128_S100000x128_0_1 b (ix2 r q) = b (ix2 (0 : Fin 1) q) :=
    broadcastInDim_apply _ _ b (ix2 r q) (ix2 (0 : Fin 1) q) (fun d => match d with
      | ⟨0, _⟩ => by show (0 : Nat) = if (1 : Nat) = 1 then 0 else r.val; rw [if_pos rfl]
      | ⟨1, _⟩ => by show q.val = if (128 : Nat) = 1 then 0 else q.val; rw [if_neg (by decide)])
  have hc : broadcastInDim S100000x128 ![] Cert.ReferenceIdeal.Facts₀.bcast_S_S100000x128 (constant (F := Ideal) S_ .f32 0x00000000#32) (ix2 r q)
      = Ideal.ofBits .f32 0x00000000#32 :=
    (broadcastInDim_apply _ _ (constant (F := Ideal) S_ .f32 0x00000000#32) (ix2 r q) ix0 (fun a => a.elim0)).trans (constant_apply _ _)
  rw [hb, hc]

/-- The body's stored value at a block coordinate: the larger of zero and the block's entry plus the bias row's entry of that column. -/
theorem pay_apply (x0 : Vec Ideal S2000x128 .f32) (x1 : Vec Ideal S1x128 .f32) (p : Fin 2000) (q : Fin 128) :
    k2_pay1 x0 x1 (ix2 p q) = max (x0 (ix2 p q) + x1 (ix2 (0 : Fin 1) q)) (Ideal.ofBits .f32 0x00000000#32) := by
  unfold k2_pay1
  simp only [maximumf_apply, addf_apply, shapeCast_self, broadcast_apply]
  refine congrArg (fun z => max (x0 (ix2 p q) + z) _) ?_
  exact broadcastTo_apply x1 _ (ix2 p q) (ix2 (0 : Fin 1) q) (fun d => match d with
    | ⟨0, _⟩ => by show (0 : Nat) = if (1 : Nat) = 1 then 0 else _; rw [if_pos rfl]
    | ⟨1, _⟩ => by show q.val = if (128 : Nat) = 1 then 0 else q.val; rw [if_neg (by decide)])

/-- One point, one entry: if the two blocks hold the arrays' entries at row r, the stored value is the function's. -/
theorem point_eq (A : FVec Ideal S100000x128 .f32) (B : FVec Ideal S1x128 .f32) (x0 : Vec Ideal S2000x128 .f32) (x1 : Vec Ideal S1x128 .f32)
    (p : Fin 2000) (q : Fin 128) (r : Fin 100000) (h0 : x0 (ix2 p q) = A (ix2 r q)) (h1 : x1 (ix2 (0 : Fin 1) q) = B (ix2 (0 : Fin 1) q)) :
    k2_pay1 x0 x1 (ix2 p q) = G2 A B (ix2 r q) := by
  rw [pay_apply, G2_apply, h0, h1]

theorem hz : (![0, 0] : Fin 2 → Nat) = fun _ => 0 := funext fun a => by fin_cases a <;> rfl

/-- The printed index maps over the grid: point t takes row block t of the aggregate and of the result, and the whole bias row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is row block t of the whole-array function. -/
theorem flushed_eq (c : Dev nD) (t : Fin cfg2.N) :
    (dat2 V c).flushed 2 t = ((cfg2.win 2).blk t).view.read (Elt Ideal) (G2 (agg V c) (brow V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S1x128) hz]
  obtain ⟨e00, e01, e10, e11, e20, e21⟩ := idx_facts t
  have hN : t.val < 50 := Nat.lt_of_lt_of_eq t.isLt N_2
  funext j
  obtain ⟨p, q, rfl⟩ : ∃ (p : Fin 2000) (q : Fin 128), j = ix2 p q := ⟨j 0, j 1, eq_ix2 j⟩
  have hp : p.val < 2000 := p.isLt
  have hr : t.val * 2000 + p.val < 100000 := by omega
  have hemb : ((cfg2.win 2).blk t).view.emb (ix2 p q) = ix2 (⟨t.val * 2000 + p.val, hr⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  show k2_pay1 (iblk2 V c 0 t) (iblk2 V c 1 t) (ix2 p q) = G2 (agg V c) (brow V c) (((cfg2.win 2).blk t).view.emb (ix2 p q))
  rw [hemb]
  refine point_eq (agg V c) (brow V c) (iblk2 V c 0 t) (iblk2 V c 1 t) p q _ ?_ ?_
  · show V c main_v39 (((cfg2.win 0).blk t).view.emb (ix2 p q)) = V c main_v39 (ix2 (⟨t.val * 2000 + p.val, hr⟩ : Fin 100000) q)
    refine congrArg (V c main_v39) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * q.val = q.val; omega
  · show V c main_v40 (((cfg2.win 1).blk t).view.emb (ix2 (0 : Fin 1) q)) = V c main_v40 (ix2 (0 : Fin 1) q)
    refine congrArg (V c main_v40) ?_
    funext a; apply Fin.ext
    match a with
    | ⟨0, _⟩ => show win2_1.index t (0 : Fin 2) * 1 + 1 * 0 = 0; omega
    | ⟨1, _⟩ => show win2_1.index t (1 : Fin 2) * 128 + 1 * q.val = q.val; omega

/-- An index of the array is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v41).slice (win2_2.rect t)).set ↔ _
  rw [View.set_slice_whole, Rect.mem_set_unit]
  exact Iff.rfl

/-- The fifty row blocks tile the array: row r lies in block r / 2000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨e00, e01, e10, e11, e20, e21⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the result array is the aggregate plus the bias row, then the maximum with zero, entry by entry. -/
theorem value (c : Dev nD) : (dat2 V c).arrAt 2 cfg2.N = Cert.Spec.G2 (agg V c) (brow V c) :=
  (dat2 V c).arrAt_eq_of_cover 2 (G2 (agg V c) (brow V c)) (fun t _ => flushed_eq V c t) cover

end Cert.KernelIdeal.Region2

end
-- ==== Proof.Region3.lean ====
import proofs.«151033_j10694468567328_1_alg».proof.Proof.Gen.KernelIdeal.Frame
import proofs.«151033_j10694468567328_1_alg».proof.Proof.Gen.ReferenceIdeal.Read
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, as it finds them, at their literal types. -/
abbrev hin (c : Dev nD) : FVec Ideal S100000x128 .f32 := V c main_v41
abbrev wmat (c : Dev nD) : FVec Ideal S128x64 .f32 := V c main_arg5

open Cert.Spec (G3)

/-- Entry (r, f) of h · W is the sum over the contraction index k of h (r, k) times W (k, f). -/
theorem G3_apply (h : FVec Ideal S100000x128 .f32) (w : FVec Ideal S128x64 .f32) (r : Fin 100000) (q : Fin 64) :
    G3 h w (ix2 r q) = ∑ k : Fin 128, h (ix2 r k) * w (ix2 k q) := by
  unfold G3
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((ValueIdx.contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S100000x128_S128x64_S100000x64_1_0_0_1_n_n.rhsIdx (ix2 r q) ((ValueIdx.contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-- The left operand's index at output index i and contraction index k: its row is the output's row. -/
theorem lhs_row (i : S2000x64.Idx) (k : Cert.KernelIdeal.dot_S2000x128_S128x64_S2000x64_1_0_0_1_n_n.contr.Idx) :
    (Cert.KernelIdeal.dot_S2000x128_S128x64_S2000x64_1_0_0_1_n_n.lhsIdx i k 0).val = (i 0).val := by
  unfold DotDims.lhsIdx
  rw [dif_neg (show ¬(0 : Fin S2000x128.rank) ∈ Cert.KernelIdeal.dot_S2000x128_S128x64_S2000x64_1_0_0_1_n_n.lhsBatch by decide), dif_pos (show (0 : Fin S2000x128.rank) ∈ Cert.KernelIdeal.dot_S2000x128_S128x64_S2000x64_1_0_0_1_n_n.lhsNonContracting by decide)]
  rfl
/-- Its column is the contraction index. -/
theorem lhs_col (i : S2000x64.Idx) (k : Cert.KernelIdeal.dot_S2000x128_S128x64_S2000x64_1_0_0_1_n_n.contr.Idx) :
    (Cert.KernelIdeal.dot_S2000x128_S128x64_S2000x64_1_0_0_1_n_n.lhsIdx i k 1).val = (k ⟨0, by decide⟩).val :=
  Cert.KernelIdeal.dot_S2000x128_S128x64_S2000x64_1_0_0_1_n_n.lhsIdx_val_of_single rfl i k
/-- The right operand's row is the contraction index. -/
theorem rhs_row (i : S2000x64.Idx) (k : Cert.KernelIdeal.dot_S2000x128_S128x64_S2000x64_1_0_0_1_n_n.contr.Idx) :
    (Cert.KernelIdeal.dot_S2000x128_S128x64_S2000x64_1_0_0_1_n_n.rhsIdx i k 0).val = (k ⟨0, by decide⟩).val :=
  Cert.KernelIdeal.dot_S2000x128_S128x64_S2000x64_1_0_0_1_n_n.rhsIdx_val_of_single rfl i k
/-- Its column is the output's column. -/
theorem rhs_col (i : S2000x64.Idx) (k : Cert.KernelIdeal.dot_S2000x128_S128x64_S2000x64_1_0_0_1_n_n.contr.Idx) :
    (Cert.KernelIdeal.dot_S2000x128_S128x64_S2000x64_1_0_0_1_n_n.rhsIdx i k 1).val = (i 1).val := by
  unfold DotDims.rhsIdx
  rw [dif_neg (show ¬(1 : Fin S128x64.rank) ∈ Cert.KernelIdeal.dot_S2000x128_S128x64_S2000x64_1_0_0_1_n_n.rhsBatch by decide), dif_pos (show (1 : Fin S128x64.rank) ∈ Cert.KernelIdeal.dot_S2000x128_S128x64_S2000x64_1_0_0_1_n_n.rhsNonContracting by decide)]
  rfl

/-- The body's stored value at a block coordinate (p, f): the sum over k of the row block's (p, k) times the matrix's (k, f). -/
theorem pay_apply (x0 : Vec Ideal S2000x128 .f32) (x1 : Vec Ideal S128x64 .f32) (p : Fin 2000) (q : Fin 64) :
    k3_pay1 x0 x1 (ix2 p q) = ∑ k : Fin 128, x0 (ix2 p k) * x1 (ix2 k q) := by
  unfold k3_pay1
  simp only [shapeCast_self]
  refine (Ideal.matmul_constant_zero_apply Cert.KernelIdeal.dot_S2000x128_S128x64_S2000x64_1_0_0_1_n_n none
    (truncf .bf16 x0 bitsLt_bf16_f32) (truncf .bf16 x1 bitsLt_bf16_f32) (ix2 p q)).trans ?_
  rw [← Equiv.sum_comp (ValueIdx.contrEquiv1 Cert.KernelIdeal.dot_S2000x128_S128x64_S2000x64_1_0_0_1_n_n 128 rfl rfl).symm]
  refine Finset.sum_congr rfl fun k _ => ?_
  have hk := ValueIdx.contrEquiv1_symm_val Cert.KernelIdeal.dot_S2000x128_S128x64_S2000x64_1_0_0_1_n_n 128 rfl rfl k
  have el : Cert.KernelIdeal.dot_S2000x128_S128x64_S2000x64_1_0_0_1_n_n.lhsIdx (ix2 p q) ((ValueIdx.contrEquiv1 Cert.KernelIdeal.dot_S2000x128_S128x64_S2000x64_1_0_0_1_n_n 128 rfl rfl).symm k) = ix2 p k := funext fun a => Fin.ext (by
    match a with
    | ⟨0, _⟩ => exact lhs_row _ _
    | ⟨1, _⟩ => exact (lhs_col _ _).trans hk)
  have er : Cert.KernelIdeal.dot_S2000x128_S128x64_S2000x64_1_0_0_1_n_n.rhsIdx (ix2 p q) ((ValueIdx.contrEquiv1 Cert.KernelIdeal.dot_S2000x128_S128x64_S2000x64_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- One point, one entry: if the row block holds row r of h and the matrix block holds W, the stored value is the function's. -/
theorem point_eq (A : FVec Ideal S100000x128 .f32) (B : FVec Ideal S128x64 .f32) (x0 : Vec Ideal S2000x128 .f32) (x1 : Vec Ideal S128x64 .f32)
    (p : Fin 2000) (q : Fin 64) (r : Fin 100000) (h0 : ∀ k : Fin 128, x0 (ix2 p k) = A (ix2 r k)) (h1 : ∀ k : Fin 128, x1 (ix2 k q) = B (ix2 k q)) :
    k3_pay1 x0 x1 (ix2 p q) = G3 A B (ix2 r q) := by
  rw [pay_apply, G3_apply]
  exact Finset.sum_congr rfl fun k _ => by rw [h0 k, h1 k]

theorem hz : (![0, 0] : Fin 2 → Nat) = fun _ => 0 := funext fun a => by fin_cases a <;> rfl

/-- The printed index maps over the grid: point t takes row block t of h and of the result, and the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is row block t of the whole-array function. -/
theorem flushed_eq (c : Dev nD) (t : Fin cfg3.N) :
    (dat3 V c).flushed 2 t = ((cfg3.win 2).blk t).view.read (Elt Ideal) (G3 (hin V c) (wmat V c)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x64) hz]
  obtain ⟨e00, e01, e10, e11, e20, e21⟩ := idx_facts t
  have hN : t.val < 50 := Nat.lt_of_lt_of_eq t.isLt N_3
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  have hemb : ((cfg3.win 2).blk t).view.emb (ix2 p q) = ix2 (⟨t.val * 2000 + p.val, hr⟩ : Fin 100000) q := by
    funext a; apply Fin.ext
    match a with
    | ⟨0, _⟩ => show win3_2.index t (0 : Fin 2) * 2000 + 1 * p.val = t.val * 2000 + p.val; omega
    | ⟨1, _⟩ => show win3_2.index t (1 : Fin 2) * 64 + 1 * q.val = q.val; omega
  show k3_pay1 (iblk3 V c 0 t) (iblk3 V c 1 t) (ix2 p q) = G3 (hin V c) (wmat V c) (((cfg3.win 2).blk t).view.emb (ix2 p q))
  rw [hemb]
  refine point_eq (hin V c) (wmat V c) (iblk3 V c 0 t) (iblk3 V c 1 t) p q _ ?_ ?_
  · intro k
    show V c main_v41 (((cfg3.win 0).blk t).view.emb (ix2 p k)) = V c main_v41 (ix2 (⟨t.val * 2000 + p.val, hr⟩ : Fin 100000) k)
    refine congrArg (V c main_v41) ?_
    funext a; apply Fin.ext
    match a with
    | ⟨0, _⟩ => show win3_0.index t (0 : Fin 2) * 2000 + 1 * p.val = t.val * 2000 + p.val; omega
    | ⟨1, _⟩ => show win3_0.index t (1 : Fin 2) * 128 + 1 * k.val = k.val; omega
  · intro k
    show V c main_arg5 (((cfg3.win 1).blk t).view.emb (ix2 k q)) = V c main_arg5 (ix2 k q)
    refine congrArg (V c main_arg5) ?_
    funext a; apply Fin.ext
    match a with
    | ⟨0, _⟩ => show win3_1.index t (0 : Fin 2) * 128 + 1 * k.val = k.val; omega
    | ⟨1, _⟩ => show win3_1.index t (1 : Fin 2) * 64 + 1 * q.val = q.val; omega

/-- An index of the array is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v42).slice (win3_2.rect t)).set ↔ _
  rw [View.set_slice_whole, Rect.mem_set_unit]
  exact Iff.rfl

/-- The fifty row blocks tile the array: row r lies in block r / 2000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨e00, e01, e10, e11, e20, e21⟩ := idx_facts t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the region the result array `main_v42` is h · W2, row block by row block. -/
theorem value (c : Dev nD) : (dat3 V c).arrAt 2 cfg3.N = Cert.Spec.G3 (hin V c) (wmat V c) :=
  (dat3 V c).arrAt_eq_of_cover 2 (G3 (hin V c) (wmat V c)) (fun t _ => flushed_eq V c t) cover

end Cert.KernelIdeal.Region3

end
-- ==== Proof.Region4.lean ====
import proofs.«151033_j10694468567328_1_alg».proof.Proof.Gen.KernelIdeal.Frame
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, as it finds them, at their literal types. -/
abbrev msgs (c : Dev nD) : FVec Ideal S700000x64 .f32 := V c main_v49
abbrev ncol (c : Dev nD) : FVec Ideal S700000x1 .f32 := V c main_v27

open Cert.Spec (G4)

/-- Entry (r, f) of the result is entry r of the norm column times entry (r, f) of the messages: the norm column is
    broadcast along the features (its axis 1 has extent 1, so every feature reads its entry 0). -/
theorem G4_apply (m : FVec Ideal S700000x64 .f32) (n : FVec Ideal S700000x1 .f32) (r : Fin 700000) (q : Fin 64) :
    G4 m n (ix2 r q) = n (ix2 r (0 : Fin 1)) * m (ix2 r q) := by
  unfold G4
  rw [mulf_apply]
  refine congrArg (· * m (ix2 r q)) ?_
  exact broadcastInDim_apply _ _ n (ix2 r q) (ix2 r (0 : Fin 1)) (fun d => match d with
    | ⟨0, _⟩ => by show r.val = if (700000 : Nat) = 1 then 0 else r.val; rw [if_neg (by decide)]
    | ⟨1, _⟩ => by show (0 : Nat) = if (1 : Nat) = 1 then 0 else q.val; rw [if_pos rfl])

/-- The body's stored value at a block coordinate (p, f): the message block's entry (p, f) times the norm block's
    entry (p, 0), the norm block broadcast along the features. -/
theorem pay_apply (x0 : Vec Ideal S4000x64 .f32) (x1 : Vec Ideal S4000x1 .f32) (p : Fin 4000) (q : Fin 64) :
    k4_pay1 x0 x1 (ix2 p q) = x0 (ix2 p q) * x1 (ix2 p (0 : Fin 1)) := by
  unfold k4_pay1
  simp only [mulf_apply, shapeCast_self]
  refine congrArg (x0 (ix2 p q) * ·) ?_
  exact broadcastTo_apply x1 _ (ix2 p q) (ix2 p (0 : Fin 1)) (fun d => match d with
    | ⟨0, _⟩ => by show p.val = if (4000 : Nat) = 1 then 0 else p.val; rw [if_neg (by decide)]
    | ⟨1, _⟩ => by show (0 : Nat) = if (1 : Nat) = 1 then 0 else q.val; rw [if_pos rfl])

/-- One point, one entry: if the two blocks hold the arrays' entries at row r, the stored value is the function's.
    The body multiplies message by norm, the function norm by message: the product commutes on the extended reals. -/
theorem point_eq (A : FVec Ideal S700000x64 .f32) (B : FVec Ideal S700000x1 .f32) (x0 : Vec Ideal S4000x64 .f32) (x1 : Vec Ideal S4000x1 .f32)
    (p : Fin 4000) (q : Fin 64) (r : Fin 700000) (h0 : x0 (ix2 p q) = A (ix2 r q)) (h1 : x1 (ix2 p (0 : Fin 1)) = B (ix2 r (0 : Fin 1))) :
    k4_pay1 x0 x1 (ix2 p q) = G4 A B (ix2 r q) := by
  rw [pay_apply, G4_apply, h0, h1, mul_comm]

theorem hz : (![0, 0] : Fin 2 → Nat) = fun _ => 0 := funext fun a => by fin_cases a <;> rfl

/-- The printed index maps over the grid: point t takes row block t of the messages, of the norm column and of the result. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is row block t of the whole-array function: entry (p, f) of the block is row
    t · 4000 + p of the array, in the messages, in the norm column and in the result alike. -/
theorem flushed_eq (c : Dev nD) (t : Fin cfg4.N) :
    (dat4 V c).flushed 2 t = ((cfg4.win 2).blk t).view.read (Elt Ideal) (G4 (msgs V c) (ncol V c)) := by
  show (cfg4.win 2).cut (grid4.coords t) ((dat4 V c).after 2 t) = _
  rw [after4_2]
  unfold out4_2
  rw [View.canon_unit_zero hz]
  simp only [View.ld_unit_zero (S := S4000x64) hz, View.ld_unit_zero (S := S4000x1) hz]
  obtain ⟨e00, e01, e10, e11, e20, e21⟩ := idx_facts t
  have hN : t.val < 175 := Nat.lt_of_lt_of_eq t.isLt N_4
  funext j
  obtain ⟨p, q, rfl⟩ : ∃ (p : Fin 4000) (q : Fin 64), j = ix2 p q := ⟨j 0, j 1, eq_ix2 j⟩
  have hp : p.val < 4000 := p.isLt
  have hr : t.val * 4000 + p.val < 700000 := by omega
  have hemb : ((cfg4.win 2).blk t).view.emb (ix2 p q) = ix2 (⟨t.val * 4000 + p.val, hr⟩ : Fin 700000) q := by
    funext a; apply Fin.ext
    match a with
    | ⟨0, _⟩ => show win4_2.index t (0 : Fin 2) * 4000 + 1 * p.val = t.val * 4000 + p.val; omega
    | ⟨1, _⟩ => show win4_2.index t (1 : Fin 2) * 64 + 1 * q.val = q.val; omega
  show k4_pay1 (iblk4 V c 0 t) (iblk4 V c 1 t) (ix2 p q) = G4 (msgs V c) (ncol V c) (((cfg4.win 2).blk t).view.emb (ix2 p q))
  rw [hemb]
  refine point_eq (msgs V c) (ncol V c) (iblk4 V c 0 t) (iblk4 V c 1 t) p q _ ?_ ?_
  · show V c main_v49 (((cfg4.win 0).blk t).view.emb (ix2 p q)) = V c main_v49 (ix2 (⟨t.val * 4000 + p.val, hr⟩ : Fin 700000) q)
    refine congrArg (V c main_v49) ?_
    funext a; apply Fin.ext
    match a with
    | ⟨0, _⟩ => show win4_0.index t (0 : Fin 2) * 4000 + 1 * p.val = t.val * 4000 + p.val; omega
    | ⟨1, _⟩ => show win4_0.index t (1 : Fin 2) * 64 + 1 * q.val = q.val; omega
  · show V c main_v27 (((cfg4.win 1).blk t).view.emb (ix2 p (0 : Fin 1))) = V c main_v27 (ix2 (⟨t.val * 4000 + p.val, hr⟩ : Fin 700000) (0 : Fin 1))
    refine congrArg (V c main_v27) ?_
    funext a; apply Fin.ext
    match a with
    | ⟨0, _⟩ => show win4_1.index t (0 : Fin 2) * 4000 + 1 * p.val = t.val * 4000 + p.val; omega
    | ⟨1, _⟩ => show win4_1.index t (1 : Fin 2) * 1 + 1 * 0 = 0; omega

/-- An index of the array is in point t's block iff each coordinate is in the block's range on its axis. -/
theorem mem_blk (t : Fin cfg4.N) (i : S700000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v50).slice (win4_2.rect t)).set ↔ _
  rw [View.set_slice_whole, Rect.mem_set_unit]
  exact Iff.rfl

/-- The 175 row blocks tile the array: row r lies in block r / 4000. -/
theorem cover (i : S700000x64.Idx) : ∃ t : Fin cfg4.N, (cfg4.win 2).flush t = true ∧ i ∈ ((cfg4.win 2).blk t).view.set := by
  have hi0 : (i 0).val < 700000 := (i 0).isLt
  have hi1 : (i 1).val < 64 := (i 1).isLt
  have hN : cfg4.N = 175 := N_4
  let t : Fin cfg4.N := ⟨(i 0).val / 4000, by rw [hN]; omega⟩
  obtain ⟨e00, e01, e10, e11, e20, e21⟩ := idx_facts t
  have ht : t.val = (i 0).val / 4000 := rfl
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 64 ≤ (i 1).val ∧ (i 1).val < win4_2.index t (1 : Fin 2) * 64 + 64; omega

/-- After the region the result array `main_v50` is the messages scaled by the norm column. -/
theorem value (c : Dev nD) : (dat4 V c).arrAt 2 cfg4.N = Cert.Spec.G4 (msgs V c) (ncol V c) :=
  (dat4 V c).arrAt_eq_of_cover 2 (G4 (msgs V c) (ncol V c)) (fun t _ => flushed_eq V c t) cover

end Cert.KernelIdeal.Region4

end
-- ==== Proof.ChainB.lean ====
import proofs.«151033_j10694468567328_1_alg».proof.Proof.Gen.KernelIdeal.Frame
import proofs.«151033_j10694468567328_1_alg».proof.Proof.Gen.ReferenceIdeal.Read
import proofs.«151033_j10694468567328_1_alg».proof.Proof.Spec
import proofs.«151033_j10694468567328_1_alg».proof.Proof.Layout
import proofs.«151033_j10694468567328_1_alg».proof.Proof.ChainA
import proofs.«151033_j10694468567328_1_alg».proof.Proof.Region2
import proofs.«151033_j10694468567328_1_alg».proof.Proof.Region3
import proofs.«151033_j10694468567328_1_alg».proof.Proof.Region4

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg)

/-! ## The first scatter-add and the bias row

The messages are summed into their target rows; the bias vector reshaped to one row is the vector broadcast along the
new unit axis. -/

theorem W5_v39 (c : Dev nD) : W5 m ρ c (Proc.devRef .tc main_v39) = val_main_v40 (F := Ideal) (a0 m c) (a1 m c) (a3 m c) := by
  show StableHlo.after hostOps2 (W4 m ρ c) (Proc.devRef .tc main_v39) = _
  after_results_simp
  rw [W4_v36 m ρ c, W4_v6 m ρ c]
  rfl

theorem W5_v40 (c : Dev nD) : W5 m ρ c (Proc.devRef .tc main_v40) = val_main_v41 (F := Ideal) (a4 m c) := by
  show StableHlo.after hostOps2 (W4 m ρ c) (Proc.devRef .tc main_v40) = _
  after_results_simp
  rw [W4_arg4 m ρ c]
  refine (Cert.Layout.shapeCast_row (n := 128) (by decide) _ _ Cert.ReferenceIdeal.Facts₀.bcast_S128_S1x128_1).trans ?_
  rfl

theorem W5_v5 (c : Dev nD) : W5 m ρ c (Proc.devRef .tc main_v5) = val_main_v6 (F := Ideal) (a1 m c) :=
  (show StableHlo.after hostOps2 (W4 m ρ c) (Proc.devRef .tc main_v5) = W4 m ρ c (Proc.devRef .tc main_v5) by after_results_simp).trans (W4_v5 m ρ c)
theorem W5_v6 (c : Dev nD) : W5 m ρ c (Proc.devRef .tc main_v6) = val_main_v7 (F := Ideal) (a1 m c) :=
  (show StableHlo.after hostOps2 (W4 m ρ c) (Proc.devRef .tc main_v6) = W4 m ρ c (Proc.devRef .tc main_v6) by after_results_simp).trans (W4_v6 m ρ c)
theorem W5_v27 (c : Dev nD) : W5 m ρ c (Proc.devRef .tc main_v27) = val_main_v28 (F := Ideal) (a1 m c) :=
  (show StableHlo.after hostOps2 (W4 m ρ c) (Proc.devRef .tc main_v27) = W4 m ρ c (Proc.devRef .tc main_v27) by after_results_simp).trans (W4_v27 m ρ c)
theorem W5_arg1 (c : Dev nD) : W5 m ρ c (Proc.devRef .tc main_arg1) = a1 m c :=
  (show StableHlo.after hostOps2 (W4 m ρ c) (Proc.devRef .tc main_arg1) = W4 m ρ c (Proc.devRef .tc main_arg1) by after_results_simp).trans (W4_arg1 m ρ c)
theorem W5_arg2 (c : Dev nD) : W5 m ρ c (Proc.devRef .tc main_arg2) = a2 m c :=
  (show StableHlo.after hostOps2 (W4 m ρ c) (Proc.devRef .tc main_arg2) = W4 m ρ c (Proc.devRef .tc main_arg2) by after_results_simp).trans (W4_arg2 m ρ c)
theorem W5_arg5 (c : Dev nD) : W5 m ρ c (Proc.devRef .tc main_arg5) = a5 m c :=
  (show StableHlo.after hostOps2 (W4 m ρ c) (Proc.devRef .tc main_arg5) = W4 m ρ c (Proc.devRef .tc main_arg5) by after_results_simp).trans (W4_arg5 m ρ c)
theorem W5_arg6 (c : Dev nD) : W5 m ρ c (Proc.devRef .tc main_arg6) = a6 m c :=
  (show StableHlo.after hostOps2 (W4 m ρ c) (Proc.devRef .tc main_arg6) = W4 m ρ c (Proc.devRef .tc main_arg6) by after_results_simp).trans (W4_arg6 m ρ c)

/-! ## The bias + relu pass and the second dense transform -/

theorem W6_v41 (c : Dev nD) : W6 m ρ c (Proc.devRef .tc main_v41) = val_main_v44 (F := Ideal) (a0 m c) (a1 m c) (a3 m c) (a4 m c) :=
  ((W6_arr m ρ c 2).trans (Region2.value (V5 m ρ) c)).trans (congrArg₂ Cert.Spec.G2 (W5_v39 m ρ c) (W5_v40 m ρ c))

theorem W6_v5 (c : Dev nD) : W6 m ρ c (Proc.devRef .tc main_v5) = val_main_v6 (F := Ideal) (a1 m c) :=
  (W6_of_ne m ρ c main_v5 (by decide)).trans (W5_v5 m ρ c)
theorem W6_v6 (c : Dev nD) : W6 m ρ c (Proc.devRef .tc main_v6) = val_main_v7 (F := Ideal) (a1 m c) :=
  (W6_of_ne m ρ c main_v6 (by decide)).trans (W5_v6 m ρ c)
theorem W6_v27 (c : Dev nD) : W6 m ρ c (Proc.devRef .tc main_v27) = val_main_v28 (F := Ideal) (a1 m c) :=
  (W6_of_ne m ρ c main_v27 (by decide)).trans (W5_v27 m ρ c)
theorem W6_arg1 (c : Dev nD) : W6 m ρ c (Proc.devRef .tc main_arg1) = a1 m c :=
  (W6_of_ne m ρ c main_arg1 (by decide)).trans (W5_arg1 m ρ c)
theorem W6_arg2 (c : Dev nD) : W6 m ρ c (Proc.devRef .tc main_arg2) = a2 m c :=
  (W6_of_ne m ρ c main_arg2 (by decide)).trans (W5_arg2 m ρ c)
theorem W6_arg5 (c : Dev nD) : W6 m ρ c (Proc.devRef .tc main_arg5) = a5 m c :=
  (W6_of_ne m ρ c main_arg5 (by decide)).trans (W5_arg5 m ρ c)
theorem W6_arg6 (c : Dev nD) : W6 m ρ c (Proc.devRef .tc main_arg6) = a6 m c :=
  (W6_of_ne m ρ c main_arg6 (by decide)).trans (W5_arg6 m ρ c)

theorem W7_v42 (c : Dev nD) : W7 m ρ c (Proc.devRef .tc main_v42) = val_main_v45 (F := Ideal) (a0 m c) (a1 m c) (a3 m c) (a4 m c) (a5 m c) :=
  ((W7_arr m ρ c 2).trans (Region3.value (V6 m ρ) c)).trans (congrArg₂ Cert.Spec.G3 (W6_v41 m ρ c) (W6_arg5 m ρ c))

theorem W7_v5 (c : Dev nD) : W7 m ρ c (Proc.devRef .tc main_v5) = val_main_v6 (F := Ideal) (a1 m c) :=
  (W7_of_ne m ρ c main_v5 (by decide)).trans (W6_v5 m ρ c)
theorem W7_v6 (c : Dev nD) : W7 m ρ c (Proc.devRef .tc main_v6) = val_main_v7 (F := Ideal) (a1 m c) :=
  (W7_of_ne m ρ c main_v6 (by decide)).trans (W6_v6 m ρ c)
theorem W7_v27 (c : Dev nD) : W7 m ρ c (Proc.devRef .tc main_v27) = val_main_v28 (F := Ideal) (a1 m c) :=
  (W7_of_ne m ρ c main_v27 (by decide)).trans (W6_v27 m ρ c)
theorem W7_arg1 (c : Dev nD) : W7 m ρ c (Proc.devRef .tc main_arg1) = a1 m c :=
  (W7_of_ne m ρ c main_arg1 (by decide)).trans (W6_arg1 m ρ c)
theorem W7_arg2 (c : Dev nD) : W7 m ρ c (Proc.devRef .tc main_arg2) = a2 m c :=
  (W7_of_ne m ρ c main_arg2 (by decide)).trans (W6_arg2 m ρ c)
theorem W7_arg6 (c : Dev nD) : W7 m ρ c (Proc.devRef .tc main_arg6) = a6 m c :=
  (W7_of_ne m ρ c main_arg6 (by decide)).trans (W6_arg6 m ρ c)

/-! ## The second layer's gather and norm-scale pass

The reference builds the self-looped lists and the norm a second time for the second layer, from the same operations
of the same edge list: the second norm column IS the first. -/

theorem W8_v49 (c : Dev nD) : W8 m ρ c (Proc.devRef .tc main_v49) = val_main_v76 (F := Ideal) (a0 m c) (a1 m c) (a3 m c) (a4 m c) (a5 m c) := by
  show StableHlo.after hostOps4 (W7 m ρ c) (Proc.devRef .tc main_v49) = _
  after_results_simp
  rw [W7_v42 m ρ c, W7_v5 m ρ c]
  rfl

theorem W8_v6 (c : Dev nD) : W8 m ρ c (Proc.devRef .tc main_v6) = val_main_v7 (F := Ideal) (a1 m c) :=
  (show StableHlo.after hostOps4 (W7 m ρ c) (Proc.devRef .tc main_v6) = W7 m ρ c (Proc.devRef .tc main_v6) by after_results_simp).trans (W7_v6 m ρ c)
theorem W8_v27 (c : Dev nD) : W8 m ρ c (Proc.devRef .tc main_v27) = val_main_v28 (F := Ideal) (a1 m c) :=
  (show StableHlo.after hostOps4 (W7 m ρ c) (Proc.devRef .tc main_v27) = W7 m ρ c (Proc.devRef .tc main_v27) by after_results_simp).trans (W7_v27 m ρ c)
theorem W8_arg1 (c : Dev nD) : W8 m ρ c (Proc.devRef .tc main_arg1) = a1 m c :=
  (show StableHlo.after hostOps4 (W7 m ρ c) (Proc.devRef .tc main_arg1) = W7 m ρ c (Proc.devRef .tc main_arg1) by after_results_simp).trans (W7_arg1 m ρ c)
theorem W8_arg2 (c : Dev nD) : W8 m ρ c (Proc.devRef .tc main_arg2) = a2 m c :=
  (show StableHlo.after hostOps4 (W7 m ρ c) (Proc.devRef .tc main_arg2) = W7 m ρ c (Proc.devRef .tc main_arg2) by after_results_simp).trans (W7_arg2 m ρ c)
theorem W8_arg6 (c : Dev nD) : W8 m ρ c (Proc.devRef .tc main_arg6) = a6 m c :=
  (show StableHlo.after hostOps4 (W7 m ρ c) (Proc.devRef .tc main_arg6) = W7 m ρ c (Proc.devRef .tc main_arg6) by after_results_simp).trans (W7_arg6 m ρ c)

/-- The norm column the reference computes for the second layer is the first layer's. -/
theorem norm_col_again (x1 : (⟨S2x600000, .i32⟩ : BufTy).Contents (Elt Ideal)) :
    val_main_v69 (F := Ideal) x1 = val_main_v28 (F := Ideal) x1 := rfl

theorem W9_v50 (c : Dev nD) : W9 m ρ c (Proc.devRef .tc main_v50) = val_main_v78 (F := Ideal) (a0 m c) (a1 m c) (a3 m c) (a4 m c) (a5 m c) :=
  ((W9_arr m ρ c 2).trans (Region4.value (V8 m ρ) c)).trans
    ((congrArg₂ Cert.Spec.G4 (W8_v49 m ρ c) ((W8_v27 m ρ c).trans (norm_col_again (a1 m c)).symm)).trans rfl)

theorem W9_v6 (c : Dev nD) : W9 m ρ c (Proc.devRef .tc main_v6) = val_main_v7 (F := Ideal) (a1 m c) :=
  (W9_of_ne m ρ c main_v6 (by decide)).trans (W8_v6 m ρ c)
theorem W9_arg1 (c : Dev nD) : W9 m ρ c (Proc.devRef .tc main_arg1) = a1 m c :=
  (W9_of_ne m ρ c main_arg1 (by decide)).trans (W8_arg1 m ρ c)
theorem W9_arg2 (c : Dev nD) : W9 m ρ c (Proc.devRef .tc main_arg2) = a2 m c :=
  (W9_of_ne m ρ c main_arg2 (by decide)).trans (W8_arg2 m ρ c)
theorem W9_arg6 (c : Dev nD) : W9 m ρ c (Proc.devRef .tc main_arg6) = a6 m c :=
  (W9_of_ne m ρ c main_arg6 (by decide)).trans (W8_arg6 m ρ c)

end Cert.KernelIdeal.Chain

end
-- ==== Proof.Region5.lean ====
import proofs.«151033_j10694468567328_1_alg».proof.Proof.Gen.KernelIdeal.Frame
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

open Cert.Spec (G5)

/-- Entry (r, f) of the result is entry (r, f) of the aggregate plus entry f of the bias row. -/
theorem G5_apply (a : FVec Ideal S100000x64 .f32) (b : FVec Ideal S1x64 .f32) (r : Fin 100000) (q : Fin 64) :
    G5 a b (ix2 r q) = a (ix2 r q) + b (ix2 (0 : Fin 1) q) := by
  unfold G5
  rw [addf_apply]
  refine congrArg (a (ix2 r q) + ·) ?_
  exact broadcastInDim_apply _ _ b (ix2 r q) (ix2 (0 : Fin 1) q) (fun d => match d with
    | ⟨0, _⟩ => by show (0 : Nat) = if (1 : Nat) = 1 then 0 else r.val; rw [if_pos rfl]
    | ⟨1, _⟩ => by show q.val = if (64 : Nat) = 1 then 0 else q.val; rw [if_neg (by decide)])

/-- The body's stored value at a block coordinate: the block's entry plus the bias row's entry of that column. -/
theorem pay_apply (x0 : Vec Ideal S2000x64 .f32) (x1 : Vec Ideal S1x64 .f32) (p : Fin 2000) (q : Fin 64) :
    k5_pay1 x0 x1 (ix2 p q) = x0 (ix2 p q) + x1 (ix2 (0 : Fin 1) q) := by
  unfold k5_pay1
  simp only [addf_apply, shapeCast_self]
  refine congrArg (x0 (ix2 p q) + ·) ?_
  exact broadcastTo_apply x1 _ (ix2 p q) (ix2 (0 : Fin 1) q) (fun d => match d with
    | ⟨0, _⟩ => by show (0 : Nat) = if (1 : Nat) = 1 then 0 else _; rw [if_pos rfl]
    | ⟨1, _⟩ => by show q.val = if (64 : Nat) = 1 then 0 else q.val; rw [if_neg (by decide)])

/-- One point, one entry: if the two blocks hold the arrays' entries at row r, the stored value is the function's. -/
theorem point_eq (A : FVec Ideal S100000x64 .f32) (B : FVec Ideal S1x64 .f32) (x0 : Vec Ideal S2000x64 .f32) (x1 : Vec Ideal S1x64 .f32)
    (p : Fin 2000) (q : Fin 64) (r : Fin 100000) (h0 : x0 (ix2 p q) = A (ix2 r q)) (h1 : x1 (ix2 (0 : Fin 1) q) = B (ix2 (0 : Fin 1) q)) :
    k5_pay1 x0 x1 (ix2 p q) = G5 A B (ix2 r q) := by
  rw [pay_apply, G5_apply, h0, h1]

theorem hz : (![0, 0] : Fin 2 → Nat) = fun _ => 0 := funext fun a => by fin_cases a <;> rfl

/-- The printed index maps over the grid: point t takes row block t of the aggregate and of the result, and the whole bias row. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The aggregate and the bias row as the region finds them, at their literal types. -/
abbrev agg (c : Dev nD) : FVec Ideal S100000x64 .f32 := V c main_v53
abbrev brow (c : Dev nD) : FVec Ideal S1x64 .f32 := V c main_v54

/-- What point t writes back is row block t of the whole-array function. -/
theorem flushed_eq (c : Dev nD) (t : Fin cfg5.N) :
    (dat5 V c).flushed 2 t = ((cfg5.win 2).blk t).view.read (Elt Ideal) (G5 (agg V c) (brow V c)) := by
  show (cfg5.win 2).cut (grid5.coords t) ((dat5 V c).after 2 t) = _
  rw [after5_2]
  unfold out5_2
  rw [View.canon_unit_zero hz]
  simp only [View.ld_unit_zero (S := S2000x64) hz, View.ld_unit_zero (S := S1x64) hz]
  obtain ⟨e00, e01, e10, e11, e20, e21⟩ := idx_facts t
  have hN : t.val < 50 := Nat.lt_of_lt_of_eq t.isLt N_5
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  have hemb : ((cfg5.win 2).blk t).view.emb (ix2 p q) = ix2 (⟨t.val * 2000 + p.val, hr⟩ : Fin 100000) q := by
    funext a; apply Fin.ext
    match a with
    | ⟨0, _⟩ => show win5_2.index t (0 : Fin 2) * 2000 + 1 * p.val = t.val * 2000 + p.val; omega
    | ⟨1, _⟩ => show win5_2.index t (1 : Fin 2) * 64 + 1 * q.val = q.val; omega
  show k5_pay1 (iblk5 V c 0 t) (iblk5 V c 1 t) (ix2 p q) = G5 (agg V c) (brow V c) (((cfg5.win 2).blk t).view.emb (ix2 p q))
  rw [hemb]
  refine point_eq (agg V c) (brow V c) (iblk5 V c 0 t) (iblk5 V c 1 t) p q _ ?_ ?_
  · show V c main_v53 (((cfg5.win 0).blk t).view.emb (ix2 p q)) = V c main_v53 (ix2 (⟨t.val * 2000 + p.val, hr⟩ : Fin 100000) q)
    refine congrArg (V c main_v53) ?_
    funext a; apply Fin.ext
    match a with
    | ⟨0, _⟩ => show win5_0.index t (0 : Fin 2) * 2000 + 1 * p.val = t.val * 2000 + p.val; omega
    | ⟨1, _⟩ => show win5_0.index t (1 : Fin 2) * 64 + 1 * q.val = q.val; omega
  · show V c main_v54 (((cfg5.win 1).blk t).view.emb (ix2 (0 : Fin 1) q)) = V c main_v54 (ix2 (0 : Fin 1) q)
    refine congrArg (V c main_v54) ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega

/-- An index of the array is in point t's block iff each coordinate is in the block's range on its axis. -/
theorem mem_blk (t : Fin cfg5.N) (i : S100000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v55).slice (win5_2.rect t)).set ↔ _
  rw [View.set_slice_whole, Rect.mem_set_unit]
  exact Iff.rfl

/-- The fifty row blocks tile the array: row r lies in block r / 2000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 50 := N_5
  let t : Fin cfg5.N := ⟨(i 0).val / 2000, by rw [hN]; omega⟩
  obtain ⟨e00, e01, e10, e11, e20, e21⟩ := idx_facts t
  have ht : t.val = (i 0).val / 2000 := rfl
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 64 ≤ (i 1).val ∧ (i 1).val < win5_2.index t (1 : Fin 2) * 64 + 64; omega

/-- After the region the result array is the aggregate plus the bias row, row by row. -/
theorem value (c : Dev nD) : (dat5 V c).arrAt 2 cfg5.N = G5 (agg V c) (brow V c) :=
  (dat5 V c).arrAt_eq_of_cover 2 (G5 (agg V c) (brow V c)) (fun t _ => flushed_eq V c t) cover

end Cert.KernelIdeal.Region5

end
-- ==== Proof.Region6.lean ====
import proofs.«151033_j10694468567328_1_alg».proof.Proof.Gen.KernelIdeal.Frame
import proofs.«151033_j10694468567328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region6

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, as it finds them, at their literal types. -/
abbrev zi (c : Dev nD) : FVec Ideal S1200000x64 .f32 := V c main_v65
abbrev zj (c : Dev nD) : FVec Ideal S1200000x64 .f32 := V c main_v74

open Cert.Spec (G6)

/-- Entry (r, 0) of the result is the sum over the 64 features of the product of the two arrays' entries in row r. -/
theorem G6_apply (a b : FVec Ideal S1200000x64 .f32) (r : Fin 1200000) :
    G6 a b (ix2 r (0 : Fin 1)) = ∑ k : Fin 64, a (ix2 r k) * b (ix2 r k) := by
  unfold G6
  refine (broadcastInDim_apply _ _ _ (ix2 r (0 : Fin 1)) (ix1 r) (fun d => match d with
    | ⟨0, _⟩ => by show r.val = if (1200000 : Nat) = 1 then 0 else r.val; rw [if_neg (by decide)])).trans ?_
  simp only [Host.reduceAdd, Ideal.hostReduceAdd_def]
  rw [Ideal.hostReduceAdd_single Cert.ReferenceIdeal.Facts₀.reducesTo_S1200000x64_S1200000_d1 (by decide)]
  show Ideal.ofBits .f32 0x00000000#32 + _ = _
  rw [Ideal.ofBits_zero_f32, zero_add]
  refine Finset.sum_congr rfl fun k _ => ?_
  rw [mulf_apply]
  have hl : ∀ h : S1200000x64.Reduces [1] S1200000, h.lift (ix1 r) k = ix2 r k := fun h =>
    funext fun d => Fin.ext (by match d with | ⟨0, _⟩ => rfl | ⟨1, _⟩ => rfl)
  rw [hl]
  rfl

/-- The body's stored value at a block coordinate (p, 0): the sum over the 64 features of the product of the two blocks' entries in row p. -/
theorem pay_apply (x0 x1 : Vec Ideal S4000x64 .f32) (p : Fin 4000) :
    k6_pay1 x0 x1 (ix2 p (0 : Fin 1)) = ∑ k : Fin 64, x0 (ix2 p k) * x1 (ix2 p k) := by
  unfold k6_pay1
  simp only [shapeCast_self]
  refine (shapeCast_apply _ _ (ix2 p (0 : Fin 1)) (ix1 p) (by
    rw [Shape.rowMajor_val_two, Shape.rowMajor_val_one]
    show p.val = p.val * 1 + 0
    omega)).trans ?_
  refine (Ideal.multiReduction_add_single (mulf x0 x1) 0x00000000#32 reduces_S4000x64_S4000 _ _ (ix1 p)).trans ?_
  refine Finset.sum_congr rfl fun k _ => ?_
  rw [mulf_apply]
  have hl : reduces_S4000x64_S4000.lift (ix1 p) k = ix2 p k :=
    funext fun d => Fin.ext (by match d with | ⟨0, _⟩ => rfl | ⟨1, _⟩ => rfl)
  rw [hl]
  rfl

/-- One point, one entry: if the two blocks hold the arrays' entries of row r, the stored value is the function's. -/
theorem point_eq (A B : FVec Ideal S1200000x64 .f32) (x0 x1 : Vec Ideal S4000x64 .f32)
    (p : Fin 4000) (r : Fin 1200000) (h0 : ∀ k : Fin 64, x0 (ix2 p k) = A (ix2 r k)) (h1 : ∀ k : Fin 64, x1 (ix2 p k) = B (ix2 r k)) :
    k6_pay1 x0 x1 (ix2 p (0 : Fin 1)) = G6 A B (ix2 r (0 : Fin 1)) := by
  rw [pay_apply, G6_apply]
  exact Finset.sum_congr rfl fun k _ => by rw [h0 k, h1 k]

theorem hz : (![0, 0] : Fin 2 → Nat) = fun _ => 0 := funext fun a => by fin_cases a <;> rfl

/-- The printed index maps over the grid: point t takes row block t of each of the two arrays read and of the result. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is row block t of the whole-array function. -/
theorem flushed_eq (c : Dev nD) (t : Fin cfg6.N) :
    (dat6 V c).flushed 2 t = ((cfg6.win 2).blk t).view.read (Elt Ideal) (G6 (zi V c) (zj V c)) := by
  show (cfg6.win 2).cut (grid6.coords t) ((dat6 V c).after 2 t) = _
  rw [after6_2]
  unfold out6_2
  rw [View.canon_unit_zero hz]
  simp only [View.ld_unit_zero (S := S4000x64) hz]
  obtain ⟨e00, e01, e10, e11, e20, e21⟩ := idx_facts t
  have hN : t.val < 300 := Nat.lt_of_lt_of_eq t.isLt N_6
  funext j
  obtain ⟨p, q, rfl⟩ : ∃ (p : Fin 4000) (q : Fin 1), j = ix2 p q := ⟨j 0, j 1, eq_ix2 j⟩
  obtain rfl : q = 0 := Subsingleton.elim _ _
  have hp : p.val < 4000 := p.isLt
  have hr : t.val * 4000 + p.val < 1200000 := by omega
  have hemb : ((cfg6.win 2).blk t).view.emb (ix2 p (0 : Fin 1)) = ix2 (⟨t.val * 4000 + p.val, hr⟩ : Fin 1200000) (0 : Fin 1) := by
    funext a; apply Fin.ext
    match a with
    | ⟨0, _⟩ => show win6_2.index t (0 : Fin 2) * 4000 + 1 * p.val = t.val * 4000 + p.val; omega
    | ⟨1, _⟩ => show win6_2.index t (1 : Fin 2) * 1 + 1 * 0 = 0; omega
  show k6_pay1 (iblk6 V c 0 t) (iblk6 V c 1 t) (ix2 p (0 : Fin 1)) = G6 (zi V c) (zj V c) (((cfg6.win 2).blk t).view.emb (ix2 p (0 : Fin 1)))
  rw [hemb]
  refine point_eq (zi V c) (zj V c) (iblk6 V c 0 t) (iblk6 V c 1 t) p _ ?_ ?_
  · intro k
    show V c main_v65 (((cfg6.win 0).blk t).view.emb (ix2 p k)) = V c main_v65 (ix2 (⟨t.val * 4000 + p.val, hr⟩ : Fin 1200000) k)
    refine congrArg (V c main_v65) ?_
    funext a; apply Fin.ext
    match a with
    | ⟨0, _⟩ => show win6_0.index t (0 : Fin 2) * 4000 + 1 * p.val = t.val * 4000 + p.val; omega
    | ⟨1, _⟩ => show win6_0.index t (1 : Fin 2) * 64 + 1 * k.val = k.val; omega
  · intro k
    show V c main_v74 (((cfg6.win 1).blk t).view.emb (ix2 p k)) = V c main_v74 (ix2 (⟨t.val * 4000 + p.val, hr⟩ : Fin 1200000) k)
    refine congrArg (V c main_v74) ?_
    funext a; apply Fin.ext
    match a with
    | ⟨0, _⟩ => show win6_1.index t (0 : Fin 2) * 4000 + 1 * p.val = t.val * 4000 + p.val; omega
    | ⟨1, _⟩ => show win6_1.index t (1 : Fin 2) * 64 + 1 * k.val = k.val; omega

/-- An index of the array is in point t's block iff each coordinate is in the block's range on its axis. -/
theorem mem_blk (t : Fin cfg6.N) (i : S1200000x1.Idx) :
    i ∈ ((cfg6.win 2).blk t).view.set ↔ ∀ a : Fin 2, win6_2.index t a * S4000x1.size a ≤ (i a).val ∧ (i a).val < win6_2.index t a * S4000x1.size a + S4000x1.size a := by
  show i ∈ ((View.whole main_v75).slice (win6_2.rect t)).set ↔ _
  rw [View.set_slice_whole, Rect.mem_set_unit]
  exact Iff.rfl

/-- The three hundred row blocks tile the array: row r lies in block r / 4000. -/
theorem cover (i : S1200000x1.Idx) : ∃ t : Fin cfg6.N, (cfg6.win 2).flush t = true ∧ i ∈ ((cfg6.win 2).blk t).view.set := by
  have hi0 : (i 0).val < 1200000 := (i 0).isLt
  have hi1 : (i 1).val < 1 := (i 1).isLt
  have hN : cfg6.N = 300 := N_6
  let t : Fin cfg6.N := ⟨(i 0).val / 4000, by rw [hN]; omega⟩
  obtain ⟨e00, e01, e10, e11, e20, e21⟩ := idx_facts t
  have ht : t.val = (i 0).val / 4000 := rfl
  refine ⟨t, flush6_2 t, ?_⟩
  rw [mem_blk]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 1 ≤ (i 1).val ∧ (i 1).val < win6_2.index t (1 : Fin 2) * 1 + 1; omega

/-- After the region the result array `main_v75` is the feature-wise product of the two endpoint embeddings summed over the features. -/
theorem value (c : Dev nD) : (dat6 V c).arrAt 2 cfg6.N = Cert.Spec.G6 (zi V c) (zj V c) :=
  (dat6 V c).arrAt_eq_of_cover 2 (G6 (zi V c) (zj V c)) (fun t _ => flushed_eq V c t) cover

end Cert.KernelIdeal.Region6

end
-- ==== Proof.ChainC.lean ====
import proofs.«151033_j10694468567328_1_alg».proof.Proof.Gen.KernelIdeal.Frame
import proofs.«151033_j10694468567328_1_alg».proof.Proof.Gen.ReferenceIdeal.Read
import proofs.«151033_j10694468567328_1_alg».proof.Proof.Spec
import proofs.«151033_j10694468567328_1_alg».proof.Proof.Layout
import proofs.«151033_j10694468567328_1_alg».proof.Proof.ChainB
import proofs.«151033_j10694468567328_1_alg».proof.Proof.Region5
import proofs.«151033_j10694468567328_1_alg».proof.Proof.Region6

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg)

/-! ## The second scatter-add, bias row and bias pass -/

theorem W10_v53 (c : Dev nD) : W10 m ρ c (Proc.devRef .tc main_v53) = val_main_v81 (F := Ideal) (a0 m c) (a1 m c) (a3 m c) (a4 m c) (a5 m c) := by
  show StableHlo.after hostOps5 (W9 m ρ c) (Proc.devRef .tc main_v53) = _
  after_results_simp
  rw [W9_v50 m ρ c, W9_v6 m ρ c]
  rfl

theorem W10_v54 (c : Dev nD) : W10 m ρ c (Proc.devRef .tc main_v54) = val_main_v82 (F := Ideal) (a6 m c) := by
  show StableHlo.after hostOps5 (W9 m ρ c) (Proc.devRef .tc main_v54) = _
  after_results_simp
  rw [W9_arg6 m ρ c]
  refine (Cert.Layout.shapeCast_row (n := 64) (by decide) _ _ Cert.ReferenceIdeal.Facts₀.bcast_S64_S1x64_1).trans ?_
  rfl

theorem W10_arg1 (c : Dev nD) : W10 m ρ c (Proc.devRef .tc main_arg1) = a1 m c :=
  (show StableHlo.after hostOps5 (W9 m ρ c) (Proc.devRef .tc main_arg1) = W9 m ρ c (Proc.devRef .tc main_arg1) by after_results_simp).trans (W9_arg1 m ρ c)
theorem W10_arg2 (c : Dev nD) : W10 m ρ c (Proc.devRef .tc main_arg2) = a2 m c :=
  (show StableHlo.after hostOps5 (W9 m ρ c) (Proc.devRef .tc main_arg2) = W9 m ρ c (Proc.devRef .tc main_arg2) by after_results_simp).trans (W9_arg2 m ρ c)

theorem W11_v55 (c : Dev nD) : W11 m ρ c (Proc.devRef .tc main_v55) = val_main_v84 (F := Ideal) (a0 m c) (a1 m c) (a3 m c) (a4 m c) (a5 m c) (a6 m c) :=
  ((W11_arr m ρ c 2).trans (Region5.value (V10 m ρ) c)).trans (congrArg₂ Cert.Spec.G5 (W10_v53 m ρ c) (W10_v54 m ρ c))

theorem W11_arg1 (c : Dev nD) : W11 m ρ c (Proc.devRef .tc main_arg1) = a1 m c :=
  (W11_of_ne m ρ c main_arg1 (by decide)).trans (W10_arg1 m ρ c)
theorem W11_arg2 (c : Dev nD) : W11 m ρ c (Proc.devRef .tc main_arg2) = a2 m c :=
  (W11_of_ne m ρ c main_arg2 (by decide)).trans (W10_arg2 m ρ c)

/-! ## The two endpoint gathers, the decode, and the last reshape

The one-column array of edge scores reshaped to a vector is the vector of edge scores. -/

theorem W12_v65 (c : Dev nD) : W12 m ρ c (Proc.devRef .tc main_v65) = val_main_v94 (F := Ideal) (a0 m c) (a1 m c) (a2 m c) (a3 m c) (a4 m c) (a5 m c) (a6 m c) := by
  show StableHlo.after hostOps6 (W11 m ρ c) (Proc.devRef .tc main_v65) = _
  after_results_simp
  rw [W11_v55 m ρ c, W11_arg1 m ρ c, W11_arg2 m ρ c]
  rfl

theorem W12_v74 (c : Dev nD) : W12 m ρ c (Proc.devRef .tc main_v74) = val_main_v103 (F := Ideal) (a0 m c) (a1 m c) (a2 m c) (a3 m c) (a4 m c) (a5 m c) (a6 m c) := by
  show StableHlo.after hostOps6 (W11 m ρ c) (Proc.devRef .tc main_v74) = _
  after_results_simp
  rw [W11_v55 m ρ c, W11_arg1 m ρ c, W11_arg2 m ρ c]
  rfl

theorem W13_v75 (c : Dev nD) : W13 m ρ c (Proc.devRef .tc main_v75) =
    Cert.Spec.G6 (val_main_v94 (F := Ideal) (a0 m c) (a1 m c) (a2 m c) (a3 m c) (a4 m c) (a5 m c) (a6 m c)) (val_main_v103 (F := Ideal) (a0 m c) (a1 m c) (a2 m c) (a3 m c) (a4 m c) (a5 m c) (a6 m c)) :=
  ((W13_arr m ρ c 2).trans (Region6.value (V12 m ρ) c)).trans (congrArg₂ Cert.Spec.G6 (W12_v65 m ρ c) (W12_v74 m ρ c))

/-- The result of the kernel's @main is the reference's last stage of the launch arguments. -/
theorem W14_v76 (c : Dev nD) : W14 m ρ c (Proc.devRef .tc main_v76) = val_main_v105 (F := Ideal) (a0 m c) (a1 m c) (a2 m c) (a3 m c) (a4 m c) (a5 m c) (a6 m c) := by
  show StableHlo.after hostOps7 (W13 m ρ c) (Proc.devRef .tc main_v76) = _
  after_results_simp
  rw [W13_v75 m ρ c]
  unfold Cert.Spec.G6
  refine (Cert.Layout.shapeCast_uncol (n := 1200000) (by decide) _ Cert.ReferenceIdeal.Facts₀.bcast_S1200000_S1200000x1_0 _).trans ?_
  rfl

end Cert.KernelIdeal.Chain

end
-- ==== Proof.lean ====
/- The equivalence over the extended reals of a two-layer graph convolution encoder with a dot-product edge decoder,
   written as seven tiled kernels among gather / scatter-add host operations, against its plain reference.

   Both programs apply the SAME irregular operations in the same order — the self-looped source and target lists, the
   in-degree by scatter-add, its inverse square root, the two gathers whose product is the edge norm, the gathers of
   the transformed rows along the source list, the scatter-adds into the target rows, the gathers of the endpoint
   embeddings — and differ only in the dense pieces between them. Each dense piece of the kernel is one whole-array
   function of the arrays it reads (module Spec), and each is the reference's own stage at that place: a tiled matmul
   into a zero accumulator is the dot_general (the same finite sum); message times norm is norm times message
   (commutativity of the product on the extended reals; no finiteness is used anywhere); a block plus the bias row,
   maximum with zero, is the broadcast sum and maximum; the lane sum of a product is the host's sum over the feature
   axis; a vector reshaped to one column or one row is the vector broadcast along the unit axis. So, boundary by
   boundary through @main (modules ChainA, ChainB, ChainC), the kernel's live buffers hold the reference's stages of
   the launch arguments, and the result buffer ends at the reference's last stage. The reference recomputes the
   self-looped lists and the norm for its second layer from the same operations of the same edge list: those second
   copies are the first ones, by unfolding.

   The three frames are the generated ones (the reference's is its generated run with the result dropped); the ideal
   pass rewrote nothing, so the kernel's idealization is its own text read over the extended reals. -/
import proofs.«151033_j10694468567328_1_alg».proof.Defs
import proofs.«151033_j10694468567328_1_alg».proof.Proof.Gen.Kernel
import proofs.«151033_j10694468567328_1_alg».proof.Proof.Gen.Kernel.Skeleton
import proofs.«151033_j10694468567328_1_alg».proof.Proof.Gen.Kernel.Launch
import proofs.«151033_j10694468567328_1_alg».proof.Proof.Gen.Kernel.Points
import proofs.«151033_j10694468567328_1_alg».proof.Proof.Gen.Kernel.Frame
import proofs.«151033_j10694468567328_1_alg».proof.Proof.Gen.KernelIdeal
import proofs.«151033_j10694468567328_1_alg».proof.Proof.Gen.KernelIdeal.Skeleton
import proofs.«151033_j10694468567328_1_alg».proof.Proof.Gen.KernelIdeal.Launch
import proofs.«151033_j10694468567328_1_alg».proof.Proof.Gen.KernelIdeal.Points
import proofs.«151033_j10694468567328_1_alg».proof.Proof.Gen.KernelIdeal.Frame
import proofs.«151033_j10694468567328_1_alg».proof.Proof.Gen.ReferenceIdeal
import proofs.«151033_j10694468567328_1_alg».proof.Proof.Gen.Pre_finite_inputs
import proofs.«151033_j10694468567328_1_alg».proof.Proof.Gen.ReferenceIdeal.Run
import proofs.«151033_j10694468567328_1_alg».proof.Proof.Gen.ReferenceIdeal.Read
import proofs.«151033_j10694468567328_1_alg».proof.Proof.ResultRun
import proofs.«151033_j10694468567328_1_alg».proof.Proof.ChainC
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel's run with its result named: the reference's last stage of the launch arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v76)
          = Cert.ReferenceIdeal.Read.val_main_v105 (F := Ideal) (Cert.KernelIdeal.Chain.a0 m c) (Cert.KernelIdeal.Chain.a1 m c)
              (Cert.KernelIdeal.Chain.a2 m c) (Cert.KernelIdeal.Chain.a3 m c) (Cert.KernelIdeal.Chain.a4 m c)
              (Cert.KernelIdeal.Chain.a5 m c) (Cert.KernelIdeal.Chain.a6 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.KernelIdeal.Chain.W14_v76 m ρ c), (h c).2⟩)
    (Cert.KernelIdeal.ResultRun.run_result (F := Ideal) m ρ)

/-- From memories agreeing on the arguments both programs end at the reference's last stage of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v105_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
